-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x2048 : Shape := ⟨2, ![16, 2048]⟩
abbrev S15x1024 : Shape := ⟨2, ![15, 1024]⟩
abbrev S15 : Shape := ⟨1, ![15]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S15x1024 : S_.BroadcastsInDim S15x1024 (![] : Fin 0 → Fin S15x1024.rank)
  reducesTo_S15x1024_S_d0_1 : S15x1024.ReducesTo [0, 1] S_
  bcast_S_S15 : S_.BroadcastsInDim S15 (![] : Fin 0 → Fin S15.rank)
  reducesTo_S15_S_d0 : S15.ReducesTo [0] S_
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg1 : IVec S16x2048 32) (main_v13 : IVec S_ 1) (main_v15 : IVec S16x2048 1) (main_c_5 : IVec S_ 1) : IVec S_ 1 :=
  let main_v16 : IVec S_ 1 := (fun x v => Host.reduce IntOp.andi x v reducesTo_S16x2048_S_d0_1 h_S_) main_v15 main_c_5
  let main_v17 : IVec S_ 1 := andi main_v13 main_v16
  let main_c_6 : IVec S_ 32 := constantI S_ 32 800#32
  let main_v18 : IVec S16x2048 32 := broadcastInDim S16x2048 ![] bcast_S_S16x2048 main_c_6
  let main_v19 : IVec S16x2048 1 := cmpi .slt main_arg1 main_v18
  let main_c_7 : IVec S_ 1 := constantI S_ 1 1#1
  let main_v20 : IVec S_ 1 := (fun x v => Host.reduce IntOp.andi x v reducesTo_S16x2048_S_d0_1 h_S_) main_v19 main_c_7
  let main_v21 : IVec S_ 1 := andi main_v17 main_v20
  main_v21

def fn {F : FTy → Type} [FloatOps F] (main_arg0 : FVec F S16x2048x1024 .f32) (main_arg1 : IVec S16x2048 32) (main_arg2 : FVec F S15x1024 .f32) (main_arg3 : FVec F S15 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S15x1024 .f32 := Host.absf main_arg2
  let main_cst_0 : FVec F S_ .f32 := constant S_ .f32 0x7F800000#32
  let main_v5 : FVec F S15x1024 .f32 := broadcastInDim S15x1024 ![] bcast_S_S15x1024 main_cst_0
  let main_v6 : IVec S15x1024 1 := cmpf .olt main_v4 main_v5
  let main_c_1 : IVec S_ 1 := constantI S_ 1 1#1
  let main_v7 : IVec S_ 1 := (fun x v => Host.reduce IntOp.andi x v reducesTo_S15x1024_S_d0_1 h_S_) main_v6 main_c_1
  let main_v8 : IVec S_ 1 := andi main_v3 main_v7
  let main_v9 : FVec F S15 .f32 := Host.absf main_arg3
  let main_cst_2 : FVec F S_ .f32 := constant S_ .f32 0x7F800000#32
  let main_v10 : FVec F S15 .f32 := broadcastInDim S15 ![] bcast_S_S15 main_cst_2
  let main_v11 : IVec S15 1 := cmpf .olt main_v9 main_v10
  let main_c_3 : IVec S_ 1 := constantI S_ 1 1#1
  let main_v12 : IVec S_ 1 := (fun x v => Host.reduce IntOp.andi x v reducesTo_S15_S_d0 h_S_) main_v11 main_c_3
  let main_v13 : IVec S_ 1 := andi main_v8 main_v12
  let main_c_4 : IVec S_ 32 := constantI S_ 32 0#32
  let main_v14 : IVec S16x2048 32 := broadcastInDim S16x2048 ![] bcast_S_S16x2048 main_c_4
  let main_v15 : IVec S16x2048 1 := cmpi .sge main_arg1 main_v14
  let main_c_5 : IVec S_ 1 := constantI S_ 1 1#1
  fn_part1 (F := F) main_arg1 main_v13 main_v15 main_c_5
-- ==== Kernel.lean ====
abbrev S16x2048x1024 : Shape := ⟨3, ![16, 2048, 1024]⟩
abbrev S16x2048 : Shape := ⟨2, ![16, 2048]⟩
abbrev S15x1024 : Shape := ⟨2, ![15, 1024]⟩
abbrev S15 : Shape := ⟨1, ![15]⟩
abbrev S16x1x2048 : Shape := ⟨3, ![16, 1, 2048]⟩
abbrev S1024x15 : Shape := ⟨2, ![1024, 15]⟩
abbrev S16x2048x15 : Shape := ⟨3, ![16, 2048, 15]⟩
abbrev S1x2048x1024 : Shape := ⟨3, ![1, 2048, 1024]⟩
abbrev S1x1x2048 : Shape := ⟨3, ![1, 1, 2048]⟩
abbrev S1x2048x15 : Shape := ⟨3, ![1, 2048, 15]⟩
abbrev S2048x16 : Shape := ⟨2, ![2048, 16]⟩
abbrev S2048x1024 : Shape := ⟨2, ![2048, 1024]⟩
abbrev S2048x15 : Shape := ⟨2, ![2048, 15]⟩
abbrev S2048x1 : Shape := ⟨2, ![2048, 1]⟩
abbrev S1x2048 : Shape := ⟨2, ![1, 2048]⟩
abbrev S1x512 : Shape := ⟨2, ![1, 512]⟩
abbrev S2048x512 : Shape := ⟨2, ![2048, 512]⟩
abbrev S512x16 : Shape := ⟨2, ![512, 16]⟩
abbrev S1x15 : Shape := ⟨2, ![1, 15]⟩

abbrev nBuf : Space → Nat
  | .hbm => 8
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S15x1024, .f32⟩
  | .hbm, ⟨3, _⟩ => ⟨S15, .f32⟩
  | .hbm, ⟨4, _⟩ => ⟨S16x1x2048, .i32⟩
  | .hbm, ⟨5, _⟩ => ⟨S1024x15, .f32⟩
  | .hbm, ⟨6, _⟩ => ⟨S1024x15, .bf16⟩
  | .hbm, ⟨7, _⟩ => ⟨S16x2048x15, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x15, .bf16⟩
  | .local _ .vmem, ⟨3, _⟩ => ⟨S1x1x2048, .i32⟩
  | .local _ .vmem, ⟨4, _⟩ => ⟨S1x1x2048, .i32⟩
  | .local _ .vmem, ⟨5, _⟩ => ⟨S15, .f32⟩
  | .local _ .vmem, ⟨6, _⟩ => ⟨S1x2048x15, .f32⟩
  | .local _ .vmem, ⟨7, _⟩ => ⟨S1x2048x15, .f32⟩
  | .local _ .vmem, ⟨8, _⟩ => ⟨S2048x16, .f32⟩
  | .local _ .vmem, ⟨9, _⟩ => ⟨S2048x16, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x15 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x15 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x2048_S16x1x2048 : S16x2048.ShapeCasts S16x1x2048
  transposes_S15x1024_S1024x15_1_0 : S15x1024.Transposes [1, 0] S1024x15
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x15_S1024x15_0_0 : ∀ a, (![0, 0] : Fin 2 → Nat) a + S1024x15.size a ≤ S1024x15.size a
  h_S1024x15 : 0 < S1024x15.numel
  shapeCasts_S1024x15_S1024x15 : S1024x15.ShapeCasts S1024x15
  inb_S2048x16_S2048x15_0_0 : ∀ a, (![0, 0] : Fin 2 → Nat) a + S2048x15.size a ≤ S2048x16.size a
  h_S2048x15 : 0 < S2048x15.numel
  shapeCasts_S2048x15_S2048x15 : S2048x15.ShapeCasts S2048x15
  inb_S2048x16_S2048x1_0_15 : ∀ a, (![0, 15] : Fin 2 → Nat) a + S2048x1.size a ≤ S2048x16.size a
  h_S2048x1 : 0 < S2048x1.numel
  shapeCasts_S2048x1_S2048x1 : S2048x1.ShapeCasts S2048x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  transposes_S1x2048_p1_0_S2048x1 : S1x2048.Transposes [1, 0] S2048x1
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  slices_S1x2048_o0_0_S1x512 : S1x2048.Slices ![0, 0] S1x512
  broadcasts_S2048x1_S2048x512 : S2048x1.Broadcasts S2048x512
  broadcasts_S1x512_S2048x512 : S1x512.Broadcasts S2048x512
  natLt_1_32 : 1 < 32
  inb_S2048x16_S512x16_0_0 : ∀ a, (![0, 0] : Fin 2 → Nat) a + S512x16.size a ≤ S2048x16.size a
  h_S512x16 : 0 < S512x16.numel
  slices_S1x2048_o0_512_S1x512 : S1x2048.Slices ![0, 512] S1x512
  inb_S2048x16_S512x16_512_0 : ∀ a, (![512, 0] : Fin 2 → Nat) a + S512x16.size a ≤ S2048x16.size a
  slices_S1x2048_o0_1024_S1x512 : S1x2048.Slices ![0, 1024] S1x512
  inb_S2048x16_S512x16_1024_0 : ∀ a, (![1024, 0] : Fin 2 → Nat) a + S512x16.size a ≤ S2048x16.size a
  slices_S1x2048_o0_1536_S1x512 : S1x2048.Slices ![0, 1536] S1x512
  inb_S2048x16_S512x16_1536_0 : ∀ a, (![1536, 0] : Fin 2 → Nat) a + S512x16.size a ≤ S2048x16.size a
  inb_S15_S15_0 : ∀ a, (![0] : Fin 1 → Nat) a + S15.size a ≤ S15.size a
  h_S15 : 0 < S15.numel
  broadcasts_S2048x1_S2048x15 : S2048x1.Broadcasts S2048x15
  shapeCasts_S15_S1x15 : S15.ShapeCasts S1x15
  broadcasts_S1x15_S2048x15 : S1x15.Broadcasts S2048x15
  inb_S1x2048x15_S1x2048x15_0_0_0 : ∀ a, (![0, 0, 0] : Fin 3 → Nat) a + S1x2048x15.size a ≤ S1x2048x15.size a
  h_S1x2048x15 : 0 < S1x2048x15.numel
  shapeCasts_S1x2048x15_S2048x15 : S1x2048x15.ShapeCasts S2048x15
  shapeCasts_S2048x15_S1x2048x15 : S2048x15.ShapeCasts S1x2048x15
  dot_S2048x1024_S1024x15_S2048x15_1_0_0_1_n_n_wf : DotDims.WF S2048x1024 S1024x15 S2048x15 [1] [0] [0] [1] [] []
  dot_S2048x512_S512x16_S2048x16_1_0_0_1_n_n_wf : DotDims.WF S2048x512 S512x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S16x2048x1024.size a
  hwx0_0 : ∀ i : grid0.Coords, EltTy.bits .f32 = 32 ∨ (Rect.block (s := S16x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x15.size a ≤ S1024x15.size a
  hwx0_1 : ∀ i : grid0.Coords, EltTy.bits .bf16 = 32 ∨ (Rect.block (s := S1024x15) S1024x15.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S16x1x2048.size a
  hwx0_2 : ∀ i : grid0.Coords, EltTy.bits .i32 = 32 ∨ (Rect.block (s := S16x1x2048) S1x1x2048.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15.size a ≤ S15.size a
  hwx0_3 : ∀ i : grid0.Coords, EltTy.bits .f32 = 32 ∨ (Rect.block (s := S15) S15.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x15.size a ≤ S16x2048x15.size a
  hwx0_4 : ∀ i : grid0.Coords, EltTy.bits .f32 = 32 ∨ (Rect.block (s := S16x2048x15) S1x2048x15.size (cc0_transform_4 i) (hinb0_4 i)).WholeWords (EltTy.packing .f32)

variable [Facts₀]

def dot_S2048x1024_S1024x15_S2048x15_1_0_0_1_n_n : DotDims S2048x1024 S1024x15 S2048x15 where
  lhsContracting := [1]
  rhsContracting := [0]
  lhsNonContracting := [0]
  rhsNonContracting := [1]
  lhsBatch := []
  rhsBatch := []
  wf := dot_S2048x1024_S1024x15_S2048x15_1_0_0_1_n_n_wf
def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x15.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S15.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048x15.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S16x2048 : Shape := ⟨2, ![16, 2048]⟩
abbrev S15x1024 : Shape := ⟨2, ![15, 1024]⟩
abbrev S15 : Shape := ⟨1, ![15]⟩
abbrev S16 : Shape := ⟨1, ![16]⟩
abbrev S16x1 : Shape := ⟨2, ![16, 1]⟩
abbrev S_ : Shape := ⟨0, ![]⟩
abbrev S32768 : Shape := ⟨1, ![32768]⟩
abbrev S32768x1024 : Shape := ⟨2, ![32768, 1024]⟩
abbrev S12800x1024 : Shape := ⟨2, ![12800, 1024]⟩
abbrev S32768x1 : Shape := ⟨2, ![32768, 1]⟩
abbrev S12800 : Shape := ⟨1, ![12800]⟩
abbrev S12800x1 : Shape := ⟨2, ![12800, 1]⟩
abbrev S16x2048x15 : Shape := ⟨3, ![16, 2048, 15]⟩
abbrev S1x1x15 : Shape := ⟨3, ![1, 1, 15]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S15x1024, .f32⟩
  | .hbm, ⟨3, _⟩ => ⟨S15, .f32⟩
  | .hbm, ⟨4, _⟩ => ⟨S16, .i32⟩
  | .hbm, ⟨5, _⟩ => ⟨S16x1, .i32⟩
  | .hbm, ⟨6, _⟩ => ⟨S_, .i32⟩
  | .hbm, ⟨7, _⟩ => ⟨S16x1, .i32⟩
  | .hbm, ⟨8, _⟩ => ⟨S16x1, .i32⟩
  | .hbm, ⟨9, _⟩ => ⟨S16x2048, .i32⟩
  | .hbm, ⟨10, _⟩ => ⟨S16x2048, .i32⟩
  | .hbm, ⟨11, _⟩ => ⟨S32768, .i32⟩
  | .hbm, ⟨12, _⟩ => ⟨S32768x1024, .f32⟩
  | .hbm, ⟨13, _⟩ => ⟨S_, .f32⟩
  | .hbm, ⟨14, _⟩ => ⟨S12800x1024, .f32⟩
  | .hbm, ⟨15, _⟩ => ⟨S32768x1, .i32⟩
  | .hbm, ⟨16, _⟩ => ⟨S12800x1024, .f32⟩
  | .hbm, ⟨17, _⟩ => ⟨S_, .f32⟩
  | .hbm, ⟨18, _⟩ => ⟨S32768, .f32⟩
  | .hbm, ⟨19, _⟩ => ⟨S_, .f32⟩
  | .hbm, ⟨20, _⟩ => ⟨S12800, .f32⟩
  | .hbm, ⟨21, _⟩ => ⟨S32768x1, .i32⟩
  | .hbm, ⟨22, _⟩ => ⟨S12800, .f32⟩
  | .hbm, ⟨23, _⟩ => ⟨S_, .f32⟩
  | .hbm, ⟨24, _⟩ => ⟨S12800, .f32⟩
  | .hbm, ⟨25, _⟩ => ⟨S12800, .f32⟩
  | .hbm, ⟨26, _⟩ => ⟨S12800x1, .f32⟩
  | .hbm, ⟨27, _⟩ => ⟨S12800x1024, .f32⟩
  | .hbm, ⟨28, _⟩ => ⟨S12800x1024, .f32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S32768x1024, .f32⟩
  | .hbm, ⟨38, _⟩ => ⟨S16x2048x1024, .f32⟩
  | .hbm, ⟨39, _⟩ => ⟨S16x2048x15, .f32⟩
  | .hbm, ⟨40, _⟩ => ⟨S1x1x15, .f32⟩
  | .hbm, ⟨41, _⟩ => ⟨S16x2048x15, .f32⟩
  | .hbm, ⟨42, _⟩ => ⟨S16x2048x15, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S_S16x1 : S_.BroadcastsInDim S16x1 (![] : Fin 0 → Fin S16x1.rank)
  bcast_S16x1_S16x2048_0_1 : S16x1.BroadcastsInDim S16x2048 (![0, 1] : Fin 2 → Fin S16x2048.rank)
  shapeCasts_S16x2048_S32768 : S16x2048.ShapeCasts S32768
  shapeCasts_S16x2048x1024_S32768x1024 : S16x2048x1024.ShapeCasts S32768x1024
  bcast_S_S12800x1024 : S_.BroadcastsInDim S12800x1024 (![] : Fin 0 → Fin S12800x1024.rank)
  bcast_S32768_S32768x1_0 : S32768.BroadcastsInDim S32768x1 (![0] : Fin 1 → Fin S32768x1.rank)
  bcast_S_S32768 : S_.BroadcastsInDim S32768 (![] : Fin 0 → Fin S32768.rank)
  bcast_S_S12800 : S_.BroadcastsInDim S12800 (![] : Fin 0 → Fin S12800.rank)
  bcast_S12800_S12800x1_0 : S12800.BroadcastsInDim S12800x1 (![0] : Fin 1 → Fin S12800x1.rank)
  bcast_S12800x1_S12800x1024_0_1 : S12800x1.BroadcastsInDim S12800x1024 (![0, 1] : Fin 2 → Fin S12800x1024.rank)
  shapeCasts_S32768x1024_S16x2048x1024 : S32768x1024.ShapeCasts S16x2048x1024
  bcast_S15_S1x1x15_2 : S15.BroadcastsInDim S1x1x15 (![2] : Fin 1 → Fin S1x1x15.rank)
  bcast_S1x1x15_S16x2048x15_0_1_2 : S1x1x15.BroadcastsInDim S16x2048x15 (![0, 1, 2] : Fin 3 → Fin S16x2048x15.rank)
  scatter_S12800x1024_S32768x1_S32768x1024_1_0_0_1_wf : ScatterDims.WF S12800x1024 S32768x1 S32768x1024 [1] [0] [0] 1
  scatter_S12800_S32768x1_S32768_n_0_0_1_wf : ScatterDims.WF S12800 S32768x1 S32768 [] [0] [0] 1
  gather_S12800x1024_S32768x1_S32768x1024_1_0_n_n_0_1_11024_wf : GatherDims.WF S12800x1024 S32768x1 S32768x1024 [1] [0] [] [0] [] 1 ![1, 1024]
  dot_S16x2048x1024_S15x1024_S16x2048x15_2_1_01_0_n_n_wf : DotDims.WF S16x2048x1024 S15x1024 S16x2048x15 [2] [1] [0, 1] [0] [] []

variable [Facts₀]

def scatter_S12800x1024_S32768x1_S32768x1024_1_0_0_1 : ScatterDims S12800x1024 S32768x1 S32768x1024 where
  updateWindowDims := [1]
  insertedWindowDims := [0]
  scatterDimsToOperandDims := [0]
  indexVectorDim := 1
  wf := scatter_S12800x1024_S32768x1_S32768x1024_1_0_0_1_wf
def scatter_S12800_S32768x1_S32768_n_0_0_1 : ScatterDims S12800 S32768x1 S32768 where
  updateWindowDims := []
  insertedWindowDims := [0]
  scatterDimsToOperandDims := [0]
  indexVectorDim := 1
  wf := scatter_S12800_S32768x1_S32768_n_0_0_1_wf
def gather_S12800x1024_S32768x1_S32768x1024_1_0_n_n_0_1_11024 : GatherDims S12800x1024 S32768x1 S32768x1024 where
  offsetDims := [1]
  collapsedSliceDims := [0]
  operandBatchingDims := []
  startIndicesBatchingDims := []
  startIndexMap := [0]
  indexVectorDim := 1
  sliceSizes := ![1, 1024]
  wf := gather_S12800x1024_S32768x1_S32768x1024_1_0_n_n_0_1_11024_wf
def dot_S16x2048x1024_S15x1024_S16x2048x15_2_1_01_0_n_n : DotDims S16x2048x1024 S15x1024 S16x2048x15 where
  lhsContracting := [2]
  rhsContracting := [1]
  lhsNonContracting := [0, 1]
  rhsNonContracting := [0]
  lhsBatch := []
  rhsBatch := []
  wf := dot_S16x2048x1024_S15x1024_S16x2048x15_2_1_01_0_n_n_wf

class Facts : Prop extends Facts₀ where

variable [Facts]
-- ==== Proof.PreFacts.lean ====
/-
  What the precondition says of the argument arrays: every entry of `x` and of `W` is a real number (neither
  infinity), and every word id lies in `[0, 800)`, read as a signed 32-bit integer.

  The precondition is a conjunction of five "for all entries" tests, each a reduction by `and` of a one-bit array
  down to a single bit. The conjunction being 1 makes every conjunct 1; a reduction by `and` being 1 makes every
  entry of the reduced array 1; and an entry being 1 says, for the float tests, that `max a (-a) < ⊤` in the
  extended reals — which excludes both infinities, since `max ⊥ ⊤ = max ⊤ ⊥ = ⊤` — and, for the integer tests, the
  signed comparison of the word id with the constant 0 or 800.
-/
import proofs.«429237_j43267500540651_3_alg».proof.Pre_finite_inputs
import proofs.«429237_j43267500540651_3_alg».proof.Proof.Gen.Pre_finite_inputs
import Idealize.ShloMosaic.Lib.ReduceAll
import Idealize.ShloMosaic.Lib.StableHlo.Predicate
import Idealize.ShloMosaic.PureOps.Ideal.Laws

noncomputable section

namespace Cert.PreFacts

open Idealize.ShloMosaic Cert.Pre_finite_inputs

variable [Cert.Pre_finite_inputs.Facts]

/-- The scalar shape has one index. -/
instance subsingleton_scalar_idx : Subsingleton S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value is below `+∞` is a real number. -/
theorem real_of_abs_lt_inf (a : Ideal .f32)
    (h : FloatOps.cmpf .olt (FloatOps.hostAbsf a) (Ideal.ofBits .f32 0x7F800000#32) = 1#1) :
    ∃ r : ℝ, a = (r : EReal) := by
  rw [inf_word, Ideal.hostAbsf_def, Ideal.absf_def, Ideal.cmpf_def] at h
  simp only [Ideal.cmp, StableHlo.Predicate.ofBool_eq_one_iff, decide_eq_true_eq] at h
  induction a using EReal.rec with
  | bot => simp at h
  | top => simp at h
  | coe r => exact ⟨r, rfl⟩

/-- The five conjuncts of the precondition, each at every entry of the array it tests. -/
theorem conjuncts (x : FVec Ideal S16x2048x1024 .f32) (wid : IVec S16x2048 32) (w : FVec Ideal S15x1024 .f32)
    (b : FVec Ideal S15 .f32) (h : Cert.Pre_finite_inputs.fn (F := Ideal) x wid w b = fun _ => 1#1) :
    (∀ i, FloatOps.cmpf .olt (FloatOps.hostAbsf (x i)) (Ideal.ofBits .f32 0x7F800000#32) = 1#1) ∧
    (∀ i, FloatOps.cmpf .olt (FloatOps.hostAbsf (w i)) (Ideal.ofBits .f32 0x7F800000#32) = 1#1) ∧
    (∀ i, IntOp.cmpi .sge (wid i) 0#32 = 1#1) ∧
    (∀ i, IntOp.cmpi .slt (wid i) 800#32 = 1#1) := by
  have h0 := congrFun h (fun a => a.elim0)
  dsimp only [Cert.Pre_finite_inputs.fn, Cert.Pre_finite_inputs.fn_part1] at h0
  simp only [andi, IntOp.andi_eq_one] at h0
  obtain ⟨⟨⟨⟨hx, hw⟩, -⟩, hge⟩, hlt⟩ := h0
  refine ⟨fun i => ?_, fun i => ?_, fun i => ?_, fun i => ?_⟩
  · exact Host.reduce_andi_all _ _ _ _ _ hx i
  · exact Host.reduce_andi_all _ _ _ _ _ hw i
  · exact Host.reduce_andi_all _ _ _ _ _ hge i
  · exact Host.reduce_andi_all _ _ _ _ _ hlt i

/-- Under the precondition every entry of `x` is a real number. -/
theorem finite_x (x : FVec Ideal S16x2048x1024 .f32) (wid : IVec S16x2048 32) (w : FVec Ideal S15x1024 .f32)
    (b : FVec Ideal S15 .f32) (h : Cert.Pre_finite_inputs.fn (F := Ideal) x wid w b = fun _ => 1#1) :
    ∀ i, ∃ r : ℝ, x i = (r : EReal) := by
  intro i
  exact real_of_abs_lt_inf (x i) ((conjuncts x wid w b h).1 i)

/-- Under the precondition every entry of `W` is a real number. -/
theorem finite_w (x : FVec Ideal S16x2048x1024 .f32) (wid : IVec S16x2048 32) (w : FVec Ideal S15x1024 .f32)
    (b : FVec Ideal S15 .f32) (h : Cert.Pre_finite_inputs.fn (F := Ideal) x wid w b = fun _ => 1#1) :
    ∀ i, ∃ r : ℝ, w i = (r : EReal) := by
  intro i
  exact real_of_abs_lt_inf (w i) ((conjuncts x wid w b h).2.1 i)

/-- Under the precondition every word id, read signed, lies in `[0, 800)`. -/
theorem wid_range (x : FVec Ideal S16x2048x1024 .f32) (wid : IVec S16x2048 32) (w : FVec Ideal S15x1024 .f32)
    (b : FVec Ideal S15 .f32) (h : Cert.Pre_finite_inputs.fn (F := Ideal) x wid w b = fun _ => 1#1) :
    ∀ i, 0 ≤ (wid i).toInt ∧ (wid i).toInt < 800 := by
  intro i
  obtain ⟨-, -, hge, hlt⟩ := conjuncts x wid w b h
  have h1 := IntOp.cmpi_sge.1 (hge i)
  have h2 := IntOp.cmpi_slt.1 (hlt i)
  have e0 : (0#32 : BitVec 32).toInt = 0 := by decide
  have e8 : (800#32 : BitVec 32).toInt = 800 := by decide
  rw [e0] at h1
  rw [e8] at h2
  exact ⟨h1, h2⟩

end Cert.PreFacts

end
-- ==== Proof.RefStages.lean ====
/-
  The reference's two accumulating scatters and its gather, read at an index on the extended reals.
  A scatter of rows adds to row `g` of the operand every update row `n` whose index word, read signed, is `g`
  (an index outside the operand's rows contributes nothing); the gather of rows reads the row its index word
  names, clamped into the operand's rows.

  Each fact is read off the dimension numbers axis by axis: where an update's window starts (the index word on the
  axis the index map names, `0` elsewhere) and what window coordinate it carries (its own on a kept axis, `0` on an
  inserted one) say when it lands at a given operand index; the scatter's sum over the landing updates is then
  re-indexed by the update's row (for rows: a double sum over row and column whose column sum has one term).
-/
import proofs.«429237_j43267500540651_3_alg».proof.Proof.Gen.ReferenceIdeal.Read
import Idealize.ShloMosaic.Lib.ValueIdxRank1

noncomputable section

open scoped BigOperators

namespace Cert.ReferenceIdeal.RefStages

open Cert.ReferenceIdeal Cert.ReferenceIdeal.Gen Idealize.ShloMosaic Idealize.ShloMosaic.ValueIdx

local notation "dR" => scatter_S12800x1024_S32768x1_S32768x1024_1_0_0_1

/-- The row scatter's window for update index `j` starts, on the operand's row axis, at the index word of `j`'s row,
    read signed. -/
theorem rows_start0 (j : S32768x1024.Idx) (idx : IVec S32768x1 32) :
    (dR).start j idx 0 = (idx (ix2 (j 0) 0)).toInt := by
  unfold ScatterDims.start
  rw [dif_pos (show (0 : Fin 2) ∈ (dR).scatterDimsToOperandDims from List.mem_singleton.mpr rfl)]
  congr 2
  funext b
  refine Fin.ext ?_
  match b with
  | ⟨0, _⟩ => rfl
  | ⟨1, _⟩ => rfl

/-- On the column axis the row scatter's window starts at `0`: the index map does not name that axis. -/
theorem rows_start1 (j : S32768x1024.Idx) (idx : IVec S32768x1 32) :
    (dR).start j idx 1 = 0 := by
  unfold ScatterDims.start
  rw [dif_neg (show (1 : Fin 2) ∉ (dR).scatterDimsToOperandDims by decide)]

/-- The row axis is an inserted one: the window coordinate on it is `0`. -/
theorem rows_window0 (j : S32768x1024.Idx) : (dR).window j 0 = 0 := by
  unfold ScatterDims.window
  rw [dif_neg (show (0 : Fin 2) ∉ (dR).sKept by decide)]

/-- The column axis carries the update's own column. -/
theorem rows_window1 (j : S32768x1024.Idx) : (dR).window j 1 = (j 1).val := by
  unfold ScatterDims.window
  rw [dif_pos (show (1 : Fin 2) ∈ (dR).sKept by decide)]
  rfl

/-- Update `(n, h')` of the row scatter lands at `(g, h)` exactly when the index word of row `n`, read signed, is `g`
    and the columns agree; an index word outside `[0, 12800)` lands nowhere. -/
theorem rows_resultIdx (idx : IVec S32768x1 32) (n : Fin 32768) (h' : Fin 1024) (g : Fin 12800) (h : Fin 1024) :
    (dR).resultIdx? (ix2 n h') idx = some (ix2 g h) ↔ ((idx (ix2 n 0)).toInt = (g.val : ℤ) ∧ h' = h) := by
  have s0 : (dR).start (ix2 n h') idx 0 = (idx (ix2 n 0)).toInt := rows_start0 _ idx
  have s1 := rows_start1 (ix2 n h') idx
  have w0 := rows_window0 (ix2 n h')
  have w1 : (dR).window (ix2 n h') 1 = h'.val := rows_window1 _
  unfold ScatterDims.resultIdx?
  constructor
  · intro H
    split at H
    · rename_i hall
      have H' := Option.some.inj H
      have e0 := congrArg Fin.val (congrFun H' 0)
      have e1 := congrArg Fin.val (congrFun H' 1)
      have a0 := (hall 0).1
      simp only [s0, w0] at e0 a0
      simp only [s1, w1] at e1
      have e0' : ((idx (ix2 n 0)).toInt + ((0 : ℕ) : ℤ)).toNat = g.val := e0
      have e1' : ((0 : ℤ) + ((h'.val : ℕ) : ℤ)).toNat = h.val := e1
      refine ⟨by omega, Fin.ext (by omega)⟩
    · exact absurd H (by simp)
  · rintro ⟨hg, rfl⟩
    have hall : ∀ a : Fin S12800x1024.rank, 0 ≤ (dR).start (ix2 n h') idx a + (dR).window (ix2 n h') a ∧
        (dR).start (ix2 n h') idx a + (dR).window (ix2 n h') a < S12800x1024.size a := by
      intro a
      match a with
      | ⟨0, _⟩ =>
        have : (dR).start (ix2 n h') idx 0 + (dR).window (ix2 n h') 0 = (g.val : ℤ) := by rw [s0, w0, hg]; simp
        show 0 ≤ (dR).start (ix2 n h') idx 0 + (dR).window (ix2 n h') 0 ∧ (dR).start (ix2 n h') idx 0 + (dR).window (ix2 n h') 0 < ((12800 : ℕ) : ℤ)
        rw [this]; have := g.isLt; omega
      | ⟨1, _⟩ =>
        have : (dR).start (ix2 n h') idx 1 + (dR).window (ix2 n h') 1 = (h'.val : ℤ) := by rw [s1, w1]; simp
        show 0 ≤ (dR).start (ix2 n h') idx 1 + (dR).window (ix2 n h') 1 ∧ (dR).start (ix2 n h') idx 1 + (dR).window (ix2 n h') 1 < ((1024 : ℕ) : ℤ)
        rw [this]; have := h'.isLt; omega
    rw [dif_pos hall]
    congr 1
    funext a
    refine Fin.ext ?_
    match a with
    | ⟨0, _⟩ =>
      show ((dR).start (ix2 n h') idx 0 + (dR).window (ix2 n h') 0).toNat = g.val
      rw [s0, w0, hg]; simp
    | ⟨1, _⟩ =>
      show ((dR).start (ix2 n h') idx 1 + (dR).window (ix2 n h') 1).toNat = h'.val
      rw [s1, w1]; simp

/-- The scatter of 1024-wide rows at `(g, h)`: the operand's entry plus the entries `(n, h)` of the update rows
    `n` whose index word is `g`. -/
theorem scatter_rows_apply (x : FVec Ideal S12800x1024 .f32) (idx : IVec S32768x1 32) (upd : FVec Ideal S32768x1024 .f32)
    (g : Fin 12800) (h : Fin 1024) :
    Host.scatterAdd (F := Ideal) scatter_S12800x1024_S32768x1_S32768x1024_1_0_0_1 x idx upd (ix2 g h)
      = x (ix2 g h) + ∑ n ∈ Finset.univ.filter (fun n : Fin 32768 => (idx (ix2 n 0)).toInt = (g.val : ℤ)), upd (ix2 n h) := by
  unfold Host.scatterAdd
  rw [Ideal.hostScatterAdd_def]
  unfold Ideal.hostScatterAdd
  refine congrArg (fun t => x (ix2 g h) + t) ?_
  rw [Finset.sum_filter, Finset.sum_filter, sum_idx2]
  refine Finset.sum_congr rfl fun n _ => ?_
  simp only [rows_resultIdx, ite_and]
  by_cases hc : (idx (ix2 n 0)).toInt = (g.val : ℤ)
  · simp only [if_pos hc, Finset.sum_ite_eq', Finset.mem_univ, if_true]
  · simp only [if_neg hc, Finset.sum_const_zero]

local notation "dF" => scatter_S12800_S32768x1_S32768_n_0_0_1

/-- The scalar scatter's window for update index `j` starts at the index word of `j`, read signed. -/
theorem flat_start0 (j : S32768.Idx) (idx : IVec S32768x1 32) :
    (dF).start j idx 0 = (idx (ix2 (j 0) 0)).toInt := by
  unfold ScatterDims.start
  rw [dif_pos (show (0 : Fin 1) ∈ (dF).scatterDimsToOperandDims from List.mem_singleton.mpr rfl)]
  congr 2
  funext b
  refine Fin.ext ?_
  match b with
  | ⟨0, _⟩ => rfl
  | ⟨1, _⟩ => rfl

/-- The operand's one axis is an inserted one: the window coordinate on it is `0`. -/
theorem flat_window0 (j : S32768.Idx) : (dF).window j 0 = 0 := by
  unfold ScatterDims.window
  rw [dif_neg (show (0 : Fin 1) ∉ (dF).sKept by decide)]

/-- Update `n` of the scalar scatter lands at `g` exactly when its index word, read signed, is `g`. -/
theorem flat_resultIdx (idx : IVec S32768x1 32) (n : Fin 32768) (g : Fin 12800) :
    (dF).resultIdx? (ix1 n) idx = some (ix1 g) ↔ (idx (ix2 n 0)).toInt = (g.val : ℤ) := by
  have s0 : (dF).start (ix1 n) idx 0 = (idx (ix2 n 0)).toInt := flat_start0 _ idx
  have w0 := flat_window0 (ix1 n)
  unfold ScatterDims.resultIdx?
  constructor
  · intro H
    split at H
    · rename_i hall
      have H' := Option.some.inj H
      have e0 := congrArg Fin.val (congrFun H' 0)
      have a0 := (hall 0).1
      simp only [s0, w0] at e0 a0
      have e0' : ((idx (ix2 n 0)).toInt + ((0 : ℕ) : ℤ)).toNat = g.val := e0
      omega
    · exact absurd H (by simp)
  · intro hg
    have hall : ∀ a : Fin S12800.rank, 0 ≤ (dF).start (ix1 n) idx a + (dF).window (ix1 n) a ∧
        (dF).start (ix1 n) idx a + (dF).window (ix1 n) a < S12800.size a := by
      intro a
      match a with
      | ⟨0, _⟩ =>
        have : (dF).start (ix1 n) idx 0 + (dF).window (ix1 n) 0 = (g.val : ℤ) := by rw [s0, w0, hg]; simp
        show 0 ≤ (dF).start (ix1 n) idx 0 + (dF).window (ix1 n) 0 ∧ (dF).start (ix1 n) idx 0 + (dF).window (ix1 n) 0 < ((12800 : ℕ) : ℤ)
        rw [this]; have := g.isLt; omega
    rw [dif_pos hall]
    congr 1
    funext a
    refine Fin.ext ?_
    match a with
    | ⟨0, _⟩ =>
      show ((dF).start (ix1 n) idx 0 + (dF).window (ix1 n) 0).toNat = g.val
      rw [s0, w0, hg]; simp

/-- The scatter of scalars at `g`: the operand's entry plus the updates `n` whose index word is `g`. -/
theorem scatter_flat_apply (x : FVec Ideal S12800 .f32) (idx : IVec S32768x1 32) (upd : FVec Ideal S32768 .f32)
    (g : Fin 12800) :
    Host.scatterAdd (F := Ideal) scatter_S12800_S32768x1_S32768_n_0_0_1 x idx upd (ix1 g)
      = x (ix1 g) + ∑ n ∈ Finset.univ.filter (fun n : Fin 32768 => (idx (ix2 n 0)).toInt = (g.val : ℤ)), upd (ix1 n) := by
  unfold Host.scatterAdd
  rw [Ideal.hostScatterAdd_def]
  unfold Ideal.hostScatterAdd
  refine congrArg (fun t => x (ix1 g) + t) ?_
  rw [Finset.sum_filter, Finset.sum_filter, ← Equiv.sum_comp (idxEquiv1 (n := 32768)).symm]
  refine Finset.sum_congr rfl fun n _ => ?_
  show (if (dF).resultIdx? (ix1 n) idx = some (ix1 g) then upd (ix1 n) else 0) = _
  simp only [flat_resultIdx]

local notation "dG" => gather_S12800x1024_S32768x1_S32768x1024_1_0_n_n_0_1_11024

/-- The gather's slice for result index `j` starts, on the operand's row axis, at the index word of `j`'s row, read
    signed and clamped into `[0, 12799]` (the slice is one row high). -/
theorem gather_start0 (j : S32768x1024.Idx) (idx : IVec S32768x1 32) :
    (dG).start j idx 0 = min (idx (ix2 (j 0) 0)).toInt.toNat 12799 := by
  unfold GatherDims.start
  rw [dif_pos (show (0 : Fin 2) ∈ (dG).startIndexMap from List.mem_singleton.mpr rfl)]
  have hsi : (dG).siIdx j ⟨List.idxOf (0 : Fin 2) (dG).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the slice starts at `0`: the start index map does not name that axis. -/
theorem gather_start1 (j : S32768x1024.Idx) (idx : IVec S32768x1 32) :
    (dG).start j idx 1 = 0 := by
  unfold GatherDims.start
  rw [dif_neg (show (1 : Fin 2) ∉ (dG).startIndexMap by decide)]

/-- The row axis is collapsed: no offset on it. -/
theorem gather_off0 (j : S32768x1024.Idx) : (dG).offCoord j 0 = 0 :=
  GatherDims.offCoord_eq_zero _ _ _ (by decide)

/-- The column axis is the one offset axis: the offset on it is the result's column. -/
theorem gather_off1 (j : S32768x1024.Idx) : (dG).offCoord j 1 = (j 1).val := by
  unfold GatherDims.offCoord
  rw [dif_pos (show (1 : Fin 2) ∈ (dG).sKept by decide)]
  rfl

/-- The gather of rows at `(n, h)`: the operand at the row index word `n` names, read signed and clamped into
    `[0, 12799]`, and column `h`. -/
theorem gather_rows_apply {α : Type} (x : S12800x1024.Idx → α) (idx : IVec S32768x1 32) (n : Fin 32768) (h : Fin 1024) :
    Host.gather gather_S12800x1024_S32768x1_S32768x1024_1_0_n_n_0_1_11024 x idx (ix2 n h)
      = x (ix2 (⟨min (idx (ix2 n 0)).toInt.toNat 12799, by omega⟩ : Fin 12800) h) := by
  unfold Host.gather
  refine congrArg x ?_
  funext a
  refine Fin.ext ?_
  match a with
  | ⟨0, _⟩ =>
    show (dG).start (ix2 n h) idx 0 + (dG).batchCoord (ix2 n h) 0 + (dG).offCoord (ix2 n h) 0 = min (idx (ix2 n 0)).toInt.toNat 12799
    rw [gather_start0, GatherDims.batchCoord_eq_zero _ _ _ List.not_mem_nil, gather_off0]
    rfl
  | ⟨1, _⟩ =>
    show (dG).start (ix2 n h) idx 1 + (dG).batchCoord (ix2 n h) 1 + (dG).offCoord (ix2 n h) 1 = h.val
    rw [gather_start1, GatherDims.batchCoord_eq_zero _ _ _ List.not_mem_nil, gather_off1]
    simp

end Cert.ReferenceIdeal.RefStages

end
-- ==== Proof.Spec.lean ====
/-
  Segment-mean pooling followed by a linear head, as one function of the argument arrays.

  Inside one batch row, the tokens `k` that carry the same word id as a token `s` form the segment of `s`
  (it always contains `s`). The result at `(b, s, c)` is the mean over the segment of `s` in row `b` of the
  projected features `∑ h, x[b, k, h] · W[c, h]`, plus `bias[c]`: the sum over the segment divided by the
  number of its tokens.
-/
import Idealize.ShloMosaic.PureOps.Ideal
import Idealize.ShloMosaic.Lib.ValueIdx

noncomputable section

open scoped BigOperators

namespace Cert.Spec

open Idealize.ShloMosaic Idealize.ShloMosaic.ValueIdx

/-- The segment of token `s` in a row whose word ids are `wid`: the tokens with the word id of `s`. -/
def seg (wid : Fin 2048 → BitVec 32) (s : Fin 2048) : Finset (Fin 2048) :=
  Finset.univ.filter fun k => wid k = wid s

theorem mem_seg (wid : Fin 2048 → BitVec 32) (s k : Fin 2048) : k ∈ seg wid s ↔ wid k = wid s := by
  simp [seg]

theorem self_mem_seg (wid : Fin 2048 → BitVec 32) (s : Fin 2048) : s ∈ seg wid s :=
  (mem_seg wid s s).mpr rfl

/-- A segment is never empty: it holds its own token. -/
theorem seg_card_pos (wid : Fin 2048 → BitVec 32) (s : Fin 2048) : 0 < (seg wid s).card :=
  Finset.card_pos.mpr ⟨s, self_mem_seg wid s⟩

/-- One row's pooled head at token `s` and class `c`: the segment's sum of projected features over the
    segment's size, plus the bias. -/
def rowHead (x : Fin 2048 → Fin 1024 → EReal) (wid : Fin 2048 → BitVec 32) (w : Fin 15 → Fin 1024 → EReal)
    (bias : Fin 15 → EReal) (s : Fin 2048) (c : Fin 15) : EReal :=
  Ideal.div (∑ k ∈ seg wid s, ∑ h : Fin 1024, x k h * w c h) (((seg wid s).card : ℝ) : EReal) + bias c

abbrev SX : Shape := ⟨3, ![16, 2048, 1024]⟩
abbrev SI : Shape := ⟨2, ![16, 2048]⟩
abbrev SW : Shape := ⟨2, ![15, 1024]⟩
abbrev SB : Shape := ⟨1, ![15]⟩
abbrev SO : Shape := ⟨3, ![16, 2048, 15]⟩

/-- The pooled head of the whole batch at coordinates `(b, s, c)`: row `b`'s `rowHead`. -/
def headAt (X : SX.Idx → EReal) (wid : SI.Idx → BitVec 32) (W : SW.Idx → EReal) (bias : SB.Idx → EReal)
    (b : Fin 16) (s : Fin 2048) (c : Fin 15) : EReal :=
  rowHead (fun k h => X (ix3 b k h)) (fun k => wid (ix2 b k)) (fun c' h => W (ix2 c' h)) (fun c' => bias (ix1 c')) s c

/-- The result array: `headAt` at an index's three coordinates. -/
def head (X : SX.Idx → EReal) (wid : SI.Idx → BitVec 32) (W : SW.Idx → EReal) (bias : SB.Idx → EReal) :
    SO.Idx → EReal :=
  fun j => headAt X wid W bias (j 0) (j 1) (j 2)

theorem head_ix3 (X : SX.Idx → EReal) (wid : SI.Idx → BitVec 32) (W : SW.Idx → EReal) (bias : SB.Idx → EReal)
    (b : Fin 16) (s : Fin 2048) (c : Fin 15) : head X wid W bias (ix3 b s c) = headAt X wid W bias b s c := rfl

/-- The weight an equality test of two word ids contributes to a sum: the one-bit result of the comparison,
    widened to 32 bits and read as a signed integer, as a real number — `1` when the ids agree, `0` otherwise. -/
def eqw (a b : BitVec 32) : EReal := ((((IntOp.cmpi .eq a b).setWidth 32).toInt : ℝ) : EReal)

/-- Token `512·q + k`: token `k` of the `q`-th quarter of a row. -/
def chunkIdx (q : Fin 4) (k : Fin 512) : Fin 2048 := ⟨512 * q.val + k.val, by omega⟩

end Cert.Spec

end
-- ==== Proof.MeanProject.lean ====
/-
  Averaging commutes with a linear map, on finite values: for real `x k h` and `w h` and a non-empty finite
  set `S` of `n` tokens,  ∑ h, ((∑ k ∈ S, x k h) / n) · w h  =  (∑ k ∈ S, ∑ h, x k h · w h) / n.
  On the extended reals the law fails at infinities, so it is stated for real entries.

  Both sides are the image of one real number: division by the non-zero real `n` is the product with `1/n`,
  finite sums and products of reals commute with the embedding into the extended reals, and in the reals the
  identity is an exchange of the two summations followed by the distributive law.
-/
import proofs.«429237_j43267500540651_3_alg».proof.Proof.Spec

noncomputable section

open scoped BigOperators

namespace Cert.Spec

open Idealize.ShloMosaic

/-- The embedding of the reals into the extended reals commutes with finite sums. -/
theorem coe_sum_real {ι : Type} [DecidableEq ι] (S : Finset ι) (f : ι → ℝ) :
    ∑ k ∈ S, ((f k : ℝ) : EReal) = (((∑ k ∈ S, f k : ℝ)) : EReal) := by
  induction S using Finset.induction_on with
  | empty => simp
  | insert a S ha ih =>
    rw [Finset.sum_insert ha, Finset.sum_insert ha, ih, EReal.coe_add]

/-- The mean of the projections is the projection of the mean (real entries, a non-empty set). -/
theorem mean_project {ι : Type} [DecidableEq ι] (S : Finset ι) (hS : 0 < S.card) (x : ι → Fin 1024 → ℝ) (w : Fin 1024 → ℝ) :
    ∑ h : Fin 1024, Ideal.div (∑ k ∈ S, ((x k h : ℝ) : EReal)) (((S.card : ℝ)) : EReal) * ((w h : ℝ) : EReal)
      = Ideal.div (∑ k ∈ S, ∑ h : Fin 1024, ((x k h : ℝ) : EReal) * ((w h : ℝ) : EReal)) (((S.card : ℝ)) : EReal) := by
  have hn : ((S.card : ℝ)) ≠ 0 := by
    have : (0 : ℝ) < (S.card : ℝ) := by exact_mod_cast hS
    exact ne_of_gt this
  have hL : ∀ h : Fin 1024,
      Ideal.div (∑ k ∈ S, ((x k h : ℝ) : EReal)) (((S.card : ℝ)) : EReal) * ((w h : ℝ) : EReal)
        = (((∑ k ∈ S, x k h) * (1 / (S.card : ℝ)) * w h : ℝ) : EReal) := by
    intro h
    rw [Ideal.div_coe hn, coe_sum_real, ← EReal.coe_mul, ← EReal.coe_mul]
  have hR : ∀ k : ι, ∑ h : Fin 1024, ((x k h : ℝ) : EReal) * ((w h : ℝ) : EReal)
        = (((∑ h : Fin 1024, x k h * w h : ℝ)) : EReal) := by
    intro k
    rw [← coe_sum_real]
    simp only [EReal.coe_mul]
  simp only [hL, hR]
  rw [Ideal.div_coe hn, coe_sum_real, coe_sum_real, ← EReal.coe_mul]
  congr 1
  rw [Finset.sum_comm, Finset.sum_mul]
  apply Finset.sum_congr rfl
  intro h _
  rw [← Finset.sum_mul]
  ring

end Cert.Spec

end
-- ==== Proof.SegmentSums.lean ====
/-
  Sums over a segment. A row's 2048 tokens are visited in four quarters of 512; each quarter adds, for every
  token `k` of the quarter, `eqw (wid s) (wid k) · Z k` to a running total that starts at zero. Because the
  weight is `1` on the segment of `s` and `0` off it, the total is the sum of `Z` over the segment; with `Z = 1`
  it is the segment's size, which is at least one.

  The splitting of a row into quarters is the bijection `(q, k) ↦ 512·q + k` from `Fin 4 × Fin 512` onto
  `Fin 2048`; no distributive law is used anywhere, only `0 · z = 0` and `1 · z = z`.
-/
import proofs.«429237_j43267500540651_3_alg».proof.Proof.Spec

noncomputable section

open scoped BigOperators

namespace Cert.Spec

open Idealize.ShloMosaic

/-- The weight is the indicator of equal word ids. -/
theorem eqw_eq (a b : BitVec 32) : eqw a b = if a = b then 1 else 0 := by
  unfold eqw IntOp.cmpi
  by_cases h : a = b
  · subst h
    simp
  · have hb : (a == b) = false := by simpa using h
    simp [hb, h]

/-- A sum over a row's 2048 tokens is the sum, over the four quarters, of the sums over each quarter's 512
    tokens. -/
theorem sum_quarters (g : Fin 2048 → EReal) :
    ∑ k : Fin 2048, g k = ∑ q : Fin 4, ∑ k : Fin 512, g (chunkIdx q k) := by
  rw [← Fintype.sum_prod_type']
  symm
  apply Fintype.sum_equiv (finProdFinEquiv (m := 4) (n := 512))
  intro x
  congr 1
  apply Fin.ext
  simp [chunkIdx, finProdFinEquiv]
  omega

/-- One weighted term: the value on the segment of `s`, zero off it. -/
theorem eqw_mul (wid : Fin 2048 → BitVec 32) (Z : Fin 2048 → EReal) (s k : Fin 2048) :
    eqw (wid s) (wid k) * Z k = if wid k = wid s then Z k else 0 := by
  rw [eqw_eq]
  by_cases h : wid k = wid s
  · rw [if_pos h.symm, if_pos h, one_mul]
  · rw [if_neg (fun e => h e.symm), if_neg h, zero_mul]

/-- Four quarters, accumulated from zero in order, make the segment's sum. No finiteness is needed: a zero
    weight annihilates any extended real. -/
theorem chunks_eq_seg (wid : Fin 2048 → BitVec 32) (Z : Fin 2048 → EReal) (s : Fin 2048) :
    ((((0 : EReal) + ∑ k : Fin 512, eqw (wid s) (wid (chunkIdx 0 k)) * Z (chunkIdx 0 k))
        + ∑ k : Fin 512, eqw (wid s) (wid (chunkIdx 1 k)) * Z (chunkIdx 1 k))
        + ∑ k : Fin 512, eqw (wid s) (wid (chunkIdx 2 k)) * Z (chunkIdx 2 k))
        + ∑ k : Fin 512, eqw (wid s) (wid (chunkIdx 3 k)) * Z (chunkIdx 3 k)
      = ∑ k ∈ seg wid s, Z k := by
  rw [zero_add, seg, Finset.sum_filter, sum_quarters, Fin.sum_univ_four]
  simp only [eqw_mul]

/-- Summing ones over any finite set counts it. -/
theorem sum_one_eq_card {ι : Type} [DecidableEq ι] (S : Finset ι) :
    ∑ _k ∈ S, (1 : EReal) = (((S.card : ℝ)) : EReal) := by
  induction S using Finset.induction_on with
  | empty => simp
  | insert a S ha ih =>
    rw [Finset.sum_insert ha, Finset.card_insert_of_notMem ha, ih, Nat.cast_add, Nat.cast_one,
      EReal.coe_add, EReal.coe_one, add_comm]

/-- Summing ones over a segment counts it. -/
theorem seg_sum_one (wid : Fin 2048 → BitVec 32) (s : Fin 2048) :
    ∑ _k ∈ seg wid s, (1 : EReal) = (((seg wid s).card : ℝ) : EReal) :=
  sum_one_eq_card (seg wid s)

/-- A segment's size is at least one, so clamping it below by one changes nothing. -/
theorem max_card_one (wid : Fin 2048 → BitVec 32) (s : Fin 2048) :
    max ((((seg wid s).card : ℝ) : EReal)) 1 = (((seg wid s).card : ℝ) : EReal) := by
  apply max_eq_left
  have h : (1 : ℝ) ≤ ((seg wid s).card : ℝ) := by exact_mod_cast seg_card_pos wid s
  rw [← EReal.coe_one]
  exact EReal.coe_le_coe_iff.mpr h

end Cert.Spec

end
-- ==== Proof.RefValue.lean ====
/-
  The reference computes the pooled head. Token `(b, s)` is given the global segment number
  `wid[b, s] + 800·b`; with every word id in `[0, 800)` two tokens share a global segment exactly when they are in
  one row and share a word id, and the number is a row of the 12800-row tables. So the scattered sums and counts at
  that row are the row segment's sum and size, the gather reads them back, and the linear head of the mean is the
  mean of the projected features because the entries are real.
-/
import proofs.«429237_j43267500540651_3_alg».proof.Proof.RefStages
import proofs.«429237_j43267500540651_3_alg».proof.Proof.MeanProject
import proofs.«429237_j43267500540651_3_alg».proof.Proof.SegmentSums
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-- The flat token number of token `k` of row `b`. -/
def flat (b : Fin 16) (k : Fin 2048) : Fin 32768 := ⟨b.val * 2048 + k.val, by omega⟩

theorem v4_apply (b : Fin 16) (k : Fin 2048) :
    Read.val_main_v4 (F := Ideal) (ix2 b k) = 800#32 * BitVec.ofNat 32 b.val := by
  rw [Read.val_main_v4_apply, Read.val_main_v3_apply, Read.val_main_v2_apply, Read.val_main_c_apply,
    Read.val_main_v1_apply, Read.val_main_v0_apply]
  rfl

theorem v5_apply (wid : (⟨S16x2048, .i32⟩ : BufTy).Contents (Elt Ideal)) (b : Fin 16) (k : Fin 2048) :
    Read.val_main_v5 (F := Ideal) wid (ix2 b k) = wid (ix2 b k) + 800#32 * BitVec.ofNat 32 b.val := by
  rw [Read.val_main_v5_apply, v4_apply]
  rfl

/-- A word whose signed value lies in `[0, 800)` has that unsigned value. -/
theorem small_word (w : BitVec 32) (h : 0 ≤ w.toInt ∧ w.toInt < 800) : w.toNat < 800 ∧ w.toInt = (w.toNat : ℤ) := by
  rw [BitVec.toInt_eq_toNat_cond] at h ⊢
  have := w.isLt
  split at h <;> split <;> omega

/-- The global segment word of a token does not wrap: its value is the word id plus `800·b`. -/
theorem seg_word_toNat (w : BitVec 32) (hw : w.toNat < 800) (b : Fin 16) :
    (w + 800#32 * BitVec.ofNat 32 b.val).toNat = w.toNat + 800 * b.val := by
  have hb : b.val < 16 := b.isLt
  rw [BitVec.toNat_add, BitVec.toNat_mul, BitVec.toNat_ofNat, BitVec.toNat_ofNat]
  omega

theorem seg_word_toInt (w : BitVec 32) (hw : w.toNat < 800) (b : Fin 16) :
    (w + 800#32 * BitVec.ofNat 32 b.val).toInt = ((w.toNat + 800 * b.val : ℕ) : ℤ) := by
  have hb : b.val < 16 := b.isLt
  have e := seg_word_toNat w hw b
  rw [BitVec.toInt_eq_toNat_cond, e, if_pos (by omega)]

theorem v5_toInt (wid : (⟨S16x2048, .i32⟩ : BufTy).Contents (Elt Ideal))
    (hwid : ∀ i, 0 ≤ (wid i).toInt ∧ (wid i).toInt < 800) (b : Fin 16) (k : Fin 2048) :
    (Read.val_main_v5 (F := Ideal) wid (ix2 b k)).toInt = (((wid (ix2 b k)).toNat + 800 * b.val : ℕ) : ℤ) := by
  rw [v5_apply]
  exact seg_word_toInt _ (small_word _ (hwid _)).1 b

/-- The row of flat token `n`. -/
def rowOf (n : Fin 32768) : Fin 16 := ⟨n.val / 2048, by omega⟩
/-- The position of flat token `n` in its row. -/
def tokOf (n : Fin 32768) : Fin 2048 := ⟨n.val % 2048, by omega⟩

theorem rowOf_flat (b : Fin 16) (k : Fin 2048) : rowOf (flat b k) = b := by
  apply Fin.ext; show (b.val * 2048 + k.val) / 2048 = b.val; omega
theorem tokOf_flat (b : Fin 16) (k : Fin 2048) : tokOf (flat b k) = k := by
  apply Fin.ext; show (b.val * 2048 + k.val) % 2048 = k.val; omega
theorem flat_rowOf_tokOf (n : Fin 32768) : flat (rowOf n) (tokOf n) = n := by
  apply Fin.ext; show n.val / 2048 * 2048 + n.val % 2048 = n.val; omega

/-- A sum over the flat tokens that lie in row `b` and whose position is in `S` is the sum over `S`. -/
theorem sum_flat_filter {M : Type} [AddCommMonoid M] (P : Fin 32768 → Prop) [DecidablePred P] (b : Fin 16)
    (S : Finset (Fin 2048)) (hP : ∀ n, P n ↔ rowOf n = b ∧ tokOf n ∈ S) (f : Fin 16 → Fin 2048 → M) :
    ∑ n ∈ Finset.univ.filter P, f (rowOf n) (tokOf n) = ∑ k ∈ S, f b k := by
  refine Finset.sum_bij' (fun n _ => tokOf n) (fun k _ => flat b k) ?_ ?_ ?_ ?_ ?_
  · intro n hn
    exact ((hP n).mp (Finset.mem_filter.mp hn).2).2
  · intro k hk
    refine Finset.mem_filter.mpr ⟨Finset.mem_univ _, (hP _).mpr ⟨rowOf_flat b k, ?_⟩⟩
    rw [tokOf_flat]; exact hk
  · intro n hn
    have hb := ((hP n).mp (Finset.mem_filter.mp hn).2).1
    show flat b (tokOf n) = n
    rw [← hb]; exact flat_rowOf_tokOf n
  · intro k _
    exact tokOf_flat b k
  · intro n hn
    have hb := ((hP n).mp (Finset.mem_filter.mp hn).2).1
    rw [hb]

theorem v9_apply (wid : (⟨S16x2048, .i32⟩ : BufTy).Contents (Elt Ideal)) (n : Fin 32768) :
    Read.val_main_v9 (F := Ideal) wid (ix2 n 0) = Read.val_main_v5 (F := Ideal) wid (ix2 (rowOf n) (tokOf n)) := by
  rw [Read.val_main_v9_apply, Read.val_main_v6_apply]
  refine congrArg _ (funext fun a => ?_)
  match a with
  | ⟨0, _⟩ => rfl
  | ⟨1, _⟩ => rfl

theorem v7_apply (X : (⟨S16x2048x1024, .f32⟩ : BufTy).Contents (Elt Ideal)) (n : Fin 32768) (h : Fin 1024) :
    Read.val_main_v7 (F := Ideal) X (ix2 n h) = X (ix3 (rowOf n) (tokOf n) h) := by
  rw [Read.val_main_v7_apply]
  refine congrArg _ (funext fun a => ?_)
  have hn : n.val < 32768 := n.isLt
  have hh : h.val < 1024 := h.isLt
  match a with
  | ⟨0, _⟩ => apply Fin.ext; show (n.val * 1024 + h.val) / 2097152 = n.val / 2048; omega
  | ⟨1, _⟩ => apply Fin.ext; show (n.val * 1024 + h.val) / 1024 % 2048 = n.val % 2048; omega
  | ⟨2, _⟩ => apply Fin.ext; show (n.val * 1024 + h.val) % 1024 = h.val; omega

theorem v13_apply (wid : (⟨S16x2048, .i32⟩ : BufTy).Contents (Elt Ideal)) (n : Fin 32768) :
    Read.val_main_v13 (F := Ideal) wid (ix2 n 0) = Read.val_main_v5 (F := Ideal) wid (ix2 (rowOf n) (tokOf n)) := by
  rw [Read.val_main_v13_apply, Read.val_main_v6_apply]
  refine congrArg _ (funext fun a => ?_)
  match a with
  | ⟨0, _⟩ => rfl
  | ⟨1, _⟩ => rfl

/-- Two tokens share a global segment number exactly when they lie in one row and share a word id. -/
theorem seg_filter_iff (wid : (⟨S16x2048, .i32⟩ : BufTy).Contents (Elt Ideal))
    (hwid : ∀ i, 0 ≤ (wid i).toInt ∧ (wid i).toInt < 800) (b : Fin 16) (s : Fin 2048) (g : Fin 12800)
    (hg : g.val = (wid (ix2 b s)).toNat + 800 * b.val) (n : Fin 32768) :
    (Read.val_main_v5 (F := Ideal) wid (ix2 (rowOf n) (tokOf n))).toInt = (g.val : ℤ)
      ↔ rowOf n = b ∧ tokOf n ∈ Cert.Spec.seg (fun k => wid (ix2 b k)) s := by
  rw [v5_toInt wid hwid, hg, Cert.Spec.mem_seg]
  have h1 := (small_word _ (hwid (ix2 (rowOf n) (tokOf n)))).1
  have h2 := (small_word _ (hwid (ix2 b s))).1
  constructor
  · intro h
    have h' : (wid (ix2 (rowOf n) (tokOf n))).toNat + 800 * (rowOf n).val = (wid (ix2 b s)).toNat + 800 * b.val := by
      exact_mod_cast h
    have hb : rowOf n = b := by apply Fin.ext; omega
    refine ⟨hb, ?_⟩
    rw [hb] at h'
    exact BitVec.eq_of_toNat_eq (by omega)
  · rintro ⟨hb, hk⟩
    rw [hb]
    have hk' : wid (ix2 b (tokOf n)) = wid (ix2 b s) := hk
    rw [hk']

/-- The scattered sums at a token's global segment row: the row segment's sum. -/
theorem sums_apply (X : (⟨S16x2048x1024, .f32⟩ : BufTy).Contents (Elt Ideal)) (wid : (⟨S16x2048, .i32⟩ : BufTy).Contents (Elt Ideal))
    (hwid : ∀ i, 0 ≤ (wid i).toInt ∧ (wid i).toInt < 800) (b : Fin 16) (s : Fin 2048) (g : Fin 12800)
    (hg : g.val = (wid (ix2 b s)).toNat + 800 * b.val) (h : Fin 1024) :
    Read.val_main_v10 (F := Ideal) X wid (ix2 g h)
      = 0 + ∑ k ∈ Cert.Spec.seg (fun k => wid (ix2 b k)) s, X (ix3 b k h) := by
  unfold Read.val_main_v10
  rw [RefStages.scatter_rows_apply, Read.val_main_v8_apply, Read.val_main_cst_apply, Ideal.ofBits_def, Ideal.ofBits_zero_f32]
  refine congrArg _ ?_
  simp only [v7_apply, v9_apply]
  exact sum_flat_filter _ b _ (seg_filter_iff wid hwid b s g hg) (fun b' k => X (ix3 b' k h))

/-- The scattered counts at a token's global segment row: the row segment's size. -/
theorem counts_apply (wid : (⟨S16x2048, .i32⟩ : BufTy).Contents (Elt Ideal))
    (hwid : ∀ i, 0 ≤ (wid i).toInt ∧ (wid i).toInt < 800) (b : Fin 16) (s : Fin 2048) (g : Fin 12800)
    (hg : g.val = (wid (ix2 b s)).toNat + 800 * b.val) :
    Read.val_main_v14 (F := Ideal) wid (ix1 g)
      = 0 + (((Cert.Spec.seg (fun k => wid (ix2 b k)) s).card : ℝ) : EReal) := by
  unfold Read.val_main_v14
  rw [RefStages.scatter_flat_apply, Read.val_main_v12_apply, Read.val_main_cst_1_apply, Ideal.ofBits_def, Ideal.ofBits_zero_f32]
  refine congrArg _ ?_
  simp only [Read.val_main_v11_apply, Read.val_main_cst_0_apply, Ideal.ofBits_def, Ideal.ofBits_one_f32, v13_apply]
  rw [← Cert.Spec.seg_sum_one]
  exact sum_flat_filter _ b _ (seg_filter_iff wid hwid b s g hg) (fun _ _ => (1 : EReal))

/-- The clamped count broadcast along the columns, at a token's global segment row: the row segment's size. -/
theorem v18_apply (wid : (⟨S16x2048, .i32⟩ : BufTy).Contents (Elt Ideal))
    (hwid : ∀ i, 0 ≤ (wid i).toInt ∧ (wid i).toInt < 800) (b : Fin 16) (s : Fin 2048) (g : Fin 12800)
    (hg : g.val = (wid (ix2 b s)).toNat + 800 * b.val) (h : Fin 1024) :
    Read.val_main_v18 (F := Ideal) wid (ix2 g h) = (((Cert.Spec.seg (fun k => wid (ix2 b k)) s).card : ℝ) : EReal) := by
  rw [Read.val_main_v18_apply, Read.val_main_v17_apply, Read.val_main_v16_apply]
  have ei : Read.idx_main_v17 (Read.idx_main_v18 (ix2 g h)) = ix1 g := funext fun a => match a with | ⟨0, _⟩ => rfl
  rw [ei, counts_apply wid hwid b s g hg, Read.val_main_v15_apply, Read.val_main_cst_2_apply, Ideal.ofBits_def,
    Ideal.ofBits_one_f32, Ideal.maximumf_def, zero_add, Cert.Spec.max_card_one]

/-- The means at a token's global segment row: the row segment's sum over its size. -/
theorem v19_apply (X : (⟨S16x2048x1024, .f32⟩ : BufTy).Contents (Elt Ideal)) (wid : (⟨S16x2048, .i32⟩ : BufTy).Contents (Elt Ideal))
    (hwid : ∀ i, 0 ≤ (wid i).toInt ∧ (wid i).toInt < 800) (b : Fin 16) (s : Fin 2048) (g : Fin 12800)
    (hg : g.val = (wid (ix2 b s)).toNat + 800 * b.val) (h : Fin 1024) :
    Read.val_main_v19 (F := Ideal) X wid (ix2 g h)
      = Ideal.div (∑ k ∈ Cert.Spec.seg (fun k => wid (ix2 b k)) s, X (ix3 b k h))
          (((Cert.Spec.seg (fun k => wid (ix2 b k)) s).card : ℝ) : EReal) := by
  rw [Read.val_main_v19_apply, Ideal.hostDivf_def, sums_apply X wid hwid b s g hg h, v18_apply wid hwid b s g hg h, zero_add]

/-- The normalised index word is the global segment word itself: it is not negative. -/
theorem v25_apply (wid : (⟨S16x2048, .i32⟩ : BufTy).Contents (Elt Ideal))
    (hwid : ∀ i, 0 ≤ (wid i).toInt ∧ (wid i).toInt < 800) (n : Fin 32768) :
    Read.val_main_v25 (F := Ideal) wid (ix2 n 0) = Read.val_main_v5 (F := Ideal) wid (ix2 (rowOf n) (tokOf n)) := by
  rw [Read.val_main_v25_apply, Read.val_main_v24_apply, Read.val_main_v21_apply, Read.val_main_v20_apply,
    Read.val_main_c_3_apply]
  have e6 : Read.val_main_v6 (F := Ideal) wid (Read.idx_main_v25 (ix2 n 0))
      = Read.val_main_v5 (F := Ideal) wid (ix2 (rowOf n) (tokOf n)) := by
    rw [Read.val_main_v6_apply]
    refine congrArg _ (funext fun a => ?_)
    match a with
    | ⟨0, _⟩ => rfl
    | ⟨1, _⟩ => rfl
  rw [e6]
  have hc : IntOp.cmpi .slt (Read.val_main_v5 (F := Ideal) wid (ix2 (rowOf n) (tokOf n))) 0#32 = 0#1 := by
    show BitVec.ofBool (BitVec.slt _ _) = 0#1
    rw [BitVec.slt_eq_decide, v5_toInt wid hwid, BitVec.toInt_zero, decide_eq_false (by omega)]
    rfl
  rw [hc, select_zero]

/-- The row the gather reads for token `(b, s)`: its global segment number (the clamp does nothing). -/
theorem gather_row (wid : (⟨S16x2048, .i32⟩ : BufTy).Contents (Elt Ideal))
    (hwid : ∀ i, 0 ≤ (wid i).toInt ∧ (wid i).toInt < 800) (b : Fin 16) (s : Fin 2048) :
    min (Read.val_main_v25 (F := Ideal) wid (ix2 (flat b s) 0)).toInt.toNat 12799 = (wid (ix2 b s)).toNat + 800 * b.val := by
  rw [v25_apply wid hwid, rowOf_flat, tokOf_flat, v5_toInt wid hwid, Int.toNat_natCast]
  have h2 := (small_word _ (hwid (ix2 b s))).1
  have hb : b.val < 16 := b.isLt
  omega

/-- The gathered means at token `(b, s)`. -/
theorem v26_apply (X : (⟨S16x2048x1024, .f32⟩ : BufTy).Contents (Elt Ideal)) (wid : (⟨S16x2048, .i32⟩ : BufTy).Contents (Elt Ideal))
    (hwid : ∀ i, 0 ≤ (wid i).toInt ∧ (wid i).toInt < 800) (b : Fin 16) (s : Fin 2048) (h : Fin 1024) :
    Read.val_main_v26 (F := Ideal) X wid (ix2 (flat b s) h)
      = Ideal.div (∑ k ∈ Cert.Spec.seg (fun k => wid (ix2 b k)) s, X (ix3 b k h))
          (((Cert.Spec.seg (fun k => wid (ix2 b k)) s).card : ℝ) : EReal) := by
  unfold Read.val_main_v26
  rw [RefStages.gather_rows_apply]
  exact v19_apply X wid hwid b s _ (gather_row wid hwid b s) h

theorem v27_apply (X : (⟨S16x2048x1024, .f32⟩ : BufTy).Contents (Elt Ideal)) (wid : (⟨S16x2048, .i32⟩ : BufTy).Contents (Elt Ideal))
    (b : Fin 16) (s : Fin 2048) (h : Fin 1024) :
    Read.val_main_v27 (F := Ideal) X wid (ix3 b s h) = Read.val_main_v26 (F := Ideal) X wid (ix2 (flat b s) h) := by
  rw [Read.val_main_v27_apply]
  refine congrArg _ (funext fun a => ?_)
  have hb : b.val < 16 := b.isLt
  have hs : s.val < 2048 := s.isLt
  have hh : h.val < 1024 := h.isLt
  match a with
  | ⟨0, _⟩ => apply Fin.ext; show ((b.val * 2048 + s.val) * 1024 + h.val) / 1024 = b.val * 2048 + s.val; omega
  | ⟨1, _⟩ => apply Fin.ext; show ((b.val * 2048 + s.val) * 1024 + h.val) % 1024 = h.val; omega

/-- The reference's last stage at `(b, s, c)`: the linear head of the segment's mean, plus the bias. -/
theorem v31_apply (X : (⟨S16x2048x1024, .f32⟩ : BufTy).Contents (Elt Ideal)) (wid : (⟨S16x2048, .i32⟩ : BufTy).Contents (Elt Ideal))
    (W : (⟨S15x1024, .f32⟩ : BufTy).Contents (Elt Ideal)) (bias : (⟨S15, .f32⟩ : BufTy).Contents (Elt Ideal))
    (hwid : ∀ i, 0 ≤ (wid i).toInt ∧ (wid i).toInt < 800) (b : Fin 16) (s : Fin 2048) (c : Fin 15) :
    Read.val_main_v31 (F := Ideal) X wid W bias (ix3 b s c)
      = (∑ h : Fin 1024, Ideal.div (∑ k ∈ Cert.Spec.seg (fun k => wid (ix2 b k)) s, X (ix3 b k h))
          (((Cert.Spec.seg (fun k => wid (ix2 b k)) s).card : ℝ) : EReal) * W (ix2 c h)) + bias (ix1 c) := by
  rw [Read.val_main_v31_apply, Ideal.addf_def, Read.val_main_v28_apply, Read.val_main_v30_apply, Read.val_main_v29_apply]
  have eb : Read.idx_main_v29 (Read.idx_main_v30 (ix3 b s c)) = ix1 c := funext fun a => match a with | ⟨0, _⟩ => rfl
  rw [eb]
  refine congrArg (· + bias (ix1 c)) (Finset.sum_congr rfl fun h _ => ?_)
  have el : Read.lidx_main_v28 (ix3 b s c) h = ix3 b s h := funext fun a => match a with
    | ⟨0, _⟩ => rfl
    | ⟨1, _⟩ => rfl
    | ⟨2, _⟩ => rfl
  have er : Read.ridx_main_v28 (ix3 b s c) h = ix2 c h := funext fun a => match a with
    | ⟨0, _⟩ => rfl
    | ⟨1, _⟩ => rfl
  rw [el, er, v27_apply, v26_apply X wid hwid]

/-- With real `x` and `W` and word ids in `[0, 800)`, the reference's last stage is the pooled head. -/
theorem ref_eq_head (X : (⟨S16x2048x1024, .f32⟩ : BufTy).Contents (Elt Ideal)) (wid : (⟨S16x2048, .i32⟩ : BufTy).Contents (Elt Ideal))
    (W : (⟨S15x1024, .f32⟩ : BufTy).Contents (Elt Ideal)) (bias : (⟨S15, .f32⟩ : BufTy).Contents (Elt Ideal))
    (hX : ∀ i, ∃ r : ℝ, X i = (r : EReal)) (hW : ∀ i, ∃ r : ℝ, W i = (r : EReal))
    (hwid : ∀ i, 0 ≤ (wid i).toInt ∧ (wid i).toInt < 800) :
    Read.val_main_v31 (F := Ideal) X wid W bias = Cert.Spec.head X wid W bias := by
  funext j
  obtain ⟨b, s, c, rfl⟩ : ∃ b s c, j = ix3 b s c := ⟨j 0, j 1, j 2, eq_ix3 j⟩
  rw [Cert.Spec.head_ix3, v31_apply X wid W bias hwid b s c]
  unfold Cert.Spec.headAt Cert.Spec.rowHead
  choose xr hxr using hX
  choose wr hwr using hW
  refine congrArg (· + bias (ix1 c)) ?_
  simp only [hxr, hwr]
  exact Cert.Spec.mean_project (Cert.Spec.seg (fun k => wid (ix2 b k)) s) (Cert.Spec.seg_card_pos _ s)
    (fun k h => xr (ix3 b k h)) (fun h => wr (ix2 c h))

end Cert.ReferenceIdeal.RefValue

end
-- ==== Proof.KernelZ.lean ====
/-
  The projected features one grid point keeps in its first scratch: row `k` holds, in its first fifteen columns,
  `∑ h, x[k, h] · wT[h, j]` (the product accumulated into zero), and in its sixteenth column the constant one.
  The body later reads this scratch in four slices of 512 rows; each slice is that function at rows `512·q + k`.
-/
import proofs.«429237_j43267500540651_3_alg».proof.Proof.Gen.KernelIdeal.Frame
import proofs.«429237_j43267500540651_3_alg».proof.Proof.Spec
import Idealize.ShloMosaic.PureOps.Ideal.Laws
import Idealize.ShloMosaic.Lib.IdealHost
import Idealize.ShloMosaic.Lib.Pipeline.Value

set_option maxRecDepth 16384

noncomputable section

open scoped BigOperators

namespace Cert.KernelIdeal.Body

open Cert.KernelIdeal Cert.KernelIdeal.Gen Idealize.ShloMosaic Idealize.ShloMosaic.ValueIdx Cert.Spec

/-- The first scratch after the projection: the projected features beside a column of ones. -/
def Z (x0 : Vec Ideal S1x2048x1024 .f32) (x1 : Vec Ideal S1024x15 .bf16) (k : Fin 2048) (j : Fin 16) : EReal :=
  if hj : j.val < 15 then ∑ h : Fin 1024, x0 (ix3 0 k h) * x1 (ix2 h ⟨j.val, hj⟩) else 1

variable (c : Dev nD) (arg1 : Memref sig .tc .vmem S1x2048x1024 .f32) (harg1 : arg1.IsWhole)
  (arg2 : Memref sig .tc .vmem S1024x15 .bf16) (harg2 : arg2.IsWhole) (arg6 : Memref sig .tc .vmem S2048x16 .f32)
  (x0 : Vec Ideal S1x2048x1024 .f32) (x1 : Vec Ideal S1024x15 .bf16)

/-! ## The product read at an index -/

/-- The left factor's row axis is the result's row axis. -/
theorem lhs_proj_0 (i : S2048x15.Idx) (q : dot_S2048x1024_S1024x15_S2048x15_1_0_0_1_n_n.contr.Idx) :
    (dot_S2048x1024_S1024x15_S2048x15_1_0_0_1_n_n.lhsIdx i q 0).val = (i 0).val := by
  unfold DotDims.lhsIdx
  rw [dif_neg (show ¬(0 : Fin S2048x1024.rank) ∈ dot_S2048x1024_S1024x15_S2048x15_1_0_0_1_n_n.lhsBatch by decide), dif_pos (show (0 : Fin S2048x1024.rank) ∈ dot_S2048x1024_S1024x15_S2048x15_1_0_0_1_n_n.lhsNonContracting by decide)]
  rfl
/-- The left factor's column axis is the contracted one. -/
theorem lhs_proj_1 (i : S2048x15.Idx) (q : dot_S2048x1024_S1024x15_S2048x15_1_0_0_1_n_n.contr.Idx) :
    (dot_S2048x1024_S1024x15_S2048x15_1_0_0_1_n_n.lhsIdx i q 1).val = (q ⟨0, by decide⟩).val :=
  dot_S2048x1024_S1024x15_S2048x15_1_0_0_1_n_n.lhsIdx_val_of_single rfl i q
/-- The right factor's row axis is the contracted one. -/
theorem rhs_proj_0 (i : S2048x15.Idx) (q : dot_S2048x1024_S1024x15_S2048x15_1_0_0_1_n_n.contr.Idx) :
    (dot_S2048x1024_S1024x15_S2048x15_1_0_0_1_n_n.rhsIdx i q 0).val = (q ⟨0, by decide⟩).val :=
  dot_S2048x1024_S1024x15_S2048x15_1_0_0_1_n_n.rhsIdx_val_of_single rfl i q
/-- The right factor's column axis is the result's column axis. -/
theorem rhs_proj_1 (i : S2048x15.Idx) (q : dot_S2048x1024_S1024x15_S2048x15_1_0_0_1_n_n.contr.Idx) :
    (dot_S2048x1024_S1024x15_S2048x15_1_0_0_1_n_n.rhsIdx i q 1).val = (i 1).val := by
  unfold DotDims.rhsIdx
  rw [dif_neg (show ¬(1 : Fin S1024x15.rank) ∈ dot_S2048x1024_S1024x15_S2048x15_1_0_0_1_n_n.rhsBatch by decide), dif_pos (show (1 : Fin S1024x15.rank) ∈ dot_S2048x1024_S1024x15_S2048x15_1_0_0_1_n_n.rhsNonContracting by decide)]
  rfl

/-- The product accumulated into zero, read at row `k` and column `j`: the row of the left factor against the column of the right. -/
theorem proj_apply (a : FVec Ideal S2048x1024 .bf16) (b : FVec Ideal S1024x15 .bf16) (k : Fin 2048) (j : Fin 15) :
    FloatOps.matmul dot_S2048x1024_S1024x15_S2048x15_1_0_0_1_n_n none a b (constant (F := Ideal) S2048x15 .f32 0x00000000#32) (ix2 k j)
      = ∑ h : Fin 1024, a (ix2 k h) * b (ix2 h j) := by
  rw [Ideal.matmul_constant_zero_apply, ← Equiv.sum_comp (ValueIdx.contrEquiv1 dot_S2048x1024_S1024x15_S2048x15_1_0_0_1_n_n 1024 rfl rfl).symm]
  refine Finset.sum_congr rfl fun h _ => ?_
  have hk := ValueIdx.contrEquiv1_symm_val dot_S2048x1024_S1024x15_S2048x15_1_0_0_1_n_n 1024 rfl rfl h
  have el : dot_S2048x1024_S1024x15_S2048x15_1_0_0_1_n_n.lhsIdx (ix2 k j) ((ValueIdx.contrEquiv1 dot_S2048x1024_S1024x15_S2048x15_1_0_0_1_n_n 1024 rfl rfl).symm h) = ix2 k h := funext fun a => Fin.ext (by
    match a with
    | ⟨0, _⟩ => exact lhs_proj_0 _ _
    | ⟨1, _⟩ => exact (lhs_proj_1 _ _).trans hk)
  have er : dot_S2048x1024_S1024x15_S2048x15_1_0_0_1_n_n.rhsIdx (ix2 k j) ((ValueIdx.contrEquiv1 dot_S2048x1024_S1024x15_S2048x15_1_0_0_1_n_n 1024 rfl rfl).symm h) = ix2 h j := funext fun a => Fin.ext (by
    match a with
    | ⟨0, _⟩ => exact (rhs_proj_0 _ _).trans hk
    | ⟨1, _⟩ => exact rhs_proj_1 _ _)
  rw [el, er]

/-- The stored block of projected features at row `k` and column `j`: the casts of format and of shape change no value,
    so it is the row `k` of the loaded block `[0, k, ·]` against column `j` of the weights. -/
theorem pay3_apply (v0 : Vec Ideal S1x2048x1024 .f32) (v3 : Vec Ideal S1024x15 .bf16) (k : Fin 2048) (j : Fin 15) :
    k0_pay3 (F := Ideal) v0 v3 (ix2 k j) = ∑ h : Fin 1024, v0 (ix3 0 k h) * v3 (ix2 h j) := by
  unfold k0_pay3
  rw [shapeCast_self, shapeCast_self]
  refine (proj_apply _ _ k j).trans ?_
  refine Finset.sum_congr rfl fun h _ => ?_
  rw [truncf_apply]
  refine congrArg (· * v3 (ix2 h j)) ?_
  exact shapeCast_apply v0 shapeCasts_S1x2048x1024_S2048x1024 (ix2 k h) (ix3 0 k h)
    (by rw [Shape.rowMajor_val_two, Shape.rowMajor_val_three]; show ((0 : Fin 1).val * 2048 + k.val) * 1024 + h.val = k.val * 1024 + h.val; simp)

/-- The stored column of ones is one everywhere. -/
theorem pay4_apply (y : S2048x1.Idx) : k0_pay4 (F := Ideal) y = 1 := by
  unfold k0_pay4
  rw [shapeCast_self]
  show Ideal.ofBits .f32 0x3F800000#32 = 1
  exact Ideal.ofBits_one_f32

/-! ## The two stores, and the four slices -/

/-- What the two stores leave in the first scratch, read at row `k` and column `j`: the column of ones, stored last, holds
    column fifteen; every other column is under the block of projected features stored before it. -/
theorem canonZ (k : Fin 2048) (j : Fin 16) :
    View.canon (kernelRun0_A.sl.HS0_2 (F := Ideal) c arg1 harg1 arg2 harg2 x0 x1) (ix2 k j) = Z x0 x1 k j := by
  unfold kernelRun0_A.sl.HS0_2 Z
  by_cases hj : j.val < 15
  · rw [dif_pos hj, View.canon_cons_of_not_mem]
    · have e : (ix2 k j : S2048x16.Idx) = (Rect.unit (s := S2048x16) ![0, 0] S2048x15.size inb_S2048x16_S2048x15_0_0).emb (ix2 k ⟨j.val, hj⟩) :=
        funext fun a => Fin.ext (by
          match a with
          | ⟨0, _⟩ => show k.val = 0 + 1 * k.val; omega
          | ⟨1, _⟩ => show j.val = 0 + 1 * j.val; omega)
      rw [e, View.canon_cons_emb, pay3_apply]
      have hz3 : (![0, 0, 0] : Fin 3 → Nat) = fun _ => 0 := by funext a; fin_cases a <;> rfl
      have hz2 : (![0, 0] : Fin 2 → Nat) = fun _ => 0 := by funext a; fin_cases a <;> rfl
      have l0 : View.readAt (Elt Ideal) arg1.view (Rect.unit ![0, 0, 0] S1x2048x1024.size inb_S1x2048x1024_S1x2048x1024_0_0_0).toLoadRect (harg1.unread x0) = x0 := by
        rw [View.readAt_eq_ld, harg1.read_unread]
        exact View.ld_unit_zero (S := S1x2048x1024) hz3 _ x0
      have l1 : View.readAt (Elt Ideal) arg2.view (Rect.unit ![0, 0] S1024x15.size inb_S1024x15_S1024x15_0_0).toLoadRect (harg2.unread x1) = x1 := by
        rw [View.readAt_eq_ld, harg2.read_unread]
        exact View.ld_unit_zero (S := S1024x15) hz2 _ x1
      rw [l0, l1]
    · show ix2 k j ∉ (Rect.unit (s := S2048x16) ![0, 15] S2048x1.size inb_S2048x16_S2048x1_0_15).set
      rw [Rect.mem_set_unit]
      intro h
      have h1 : (15 : Nat) ≤ j.val := (h 1).1
      omega
  · rw [dif_neg hj]
    have hj' : j.val = 15 := by have := j.isLt; omega
    have e : (ix2 k j : S2048x16.Idx) = (Rect.unit (s := S2048x16) ![0, 15] S2048x1.size inb_S2048x16_S2048x1_0_15).emb (ix2 k 0) :=
      funext fun a => Fin.ext (by
        match a with
        | ⟨0, _⟩ => show k.val = 0 + 1 * k.val; omega
        | ⟨1, _⟩ => show j.val = 15 + 1 * 0; omega)
    rw [e, View.canon_cons_emb, pay4_apply]

/-- The slice of rows `0 … 511`. -/
theorem zslice0 (k : Fin 512) (j : Fin 16) :
    kernelRun0_A.sl.v27 (F := Ideal) c arg1 harg1 arg2 harg2 arg6 x0 x1 (ix2 k j) = Z x0 x1 (chunkIdx 0 k) j := by
  unfold kernelRun0_A.sl.v27
  rw [View.readCov_eq_canon']
  have e : (Rect.unit (s := S2048x16) ![0, 0] S512x16.size inb_S2048x16_S512x16_0_0).toLoadRect.idx (ix2 k j) = ix2 (chunkIdx 0 k) j :=
    funext fun a => Fin.ext (by
      match a with
      | ⟨0, _⟩ => show 0 + 1 * k.val = 512 * 0 + k.val; omega
      | ⟨1, _⟩ => show 0 + 1 * j.val = j.val; omega)
  show View.canon _ ((Rect.unit (s := S2048x16) ![0, 0] S512x16.size inb_S2048x16_S512x16_0_0).toLoadRect.idx (ix2 k j)) = _
  rw [e]
  exact canonZ c arg1 harg1 arg2 harg2 x0 x1 (chunkIdx 0 k) j

/-- The slice of rows `512 … 1023`. -/
theorem zslice1 (k : Fin 512) (j : Fin 16) :
    kernelRun0_A.sl.v42 (F := Ideal) c arg1 harg1 arg2 harg2 arg6 x0 x1 (ix2 k j) = Z x0 x1 (chunkIdx 1 k) j := by
  unfold kernelRun0_A.sl.v42
  rw [View.readCov_eq_canon']
  have e : (Rect.unit (s := S2048x16) ![512, 0] S512x16.size inb_S2048x16_S512x16_512_0).toLoadRect.idx (ix2 k j) = ix2 (chunkIdx 1 k) j :=
    funext fun a => Fin.ext (by
      match a with
      | ⟨0, _⟩ => show 512 + 1 * k.val = 512 * 1 + k.val; omega
      | ⟨1, _⟩ => show 0 + 1 * j.val = j.val; omega)
  show View.canon _ ((Rect.unit (s := S2048x16) ![512, 0] S512x16.size inb_S2048x16_S512x16_512_0).toLoadRect.idx (ix2 k j)) = _
  rw [e]
  exact canonZ c arg1 harg1 arg2 harg2 x0 x1 (chunkIdx 1 k) j

/-- The slice of rows `1024 … 1535`. -/
theorem zslice2 (k : Fin 512) (j : Fin 16) :
    kernelRun0_A.sl.v57 (F := Ideal) c arg1 harg1 arg2 harg2 arg6 x0 x1 (ix2 k j) = Z x0 x1 (chunkIdx 2 k) j := by
  unfold kernelRun0_A.sl.v57
  rw [View.readCov_eq_canon']
  have e : (Rect.unit (s := S2048x16) ![1024, 0] S512x16.size inb_S2048x16_S512x16_1024_0).toLoadRect.idx (ix2 k j) = ix2 (chunkIdx 2 k) j :=
    funext fun a => Fin.ext (by
      match a with
      | ⟨0, _⟩ => show 1024 + 1 * k.val = 512 * 2 + k.val; omega
      | ⟨1, _⟩ => show 0 + 1 * j.val = j.val; omega)
  show View.canon _ ((Rect.unit (s := S2048x16) ![1024, 0] S512x16.size inb_S2048x16_S512x16_1024_0).toLoadRect.idx (ix2 k j)) = _
  rw [e]
  exact canonZ c arg1 harg1 arg2 harg2 x0 x1 (chunkIdx 2 k) j

/-- The slice of rows `1536 … 2047`. -/
theorem zslice3 (k : Fin 512) (j : Fin 16) :
    kernelRun0_A.sl.v72 (F := Ideal) c arg1 harg1 arg2 harg2 arg6 x0 x1 (ix2 k j) = Z x0 x1 (chunkIdx 3 k) j := by
  unfold kernelRun0_A.sl.v72
  rw [View.readCov_eq_canon']
  have e : (Rect.unit (s := S2048x16) ![1536, 0] S512x16.size inb_S2048x16_S512x16_1536_0).toLoadRect.idx (ix2 k j) = ix2 (chunkIdx 3 k) j :=
    funext fun a => Fin.ext (by
      match a with
      | ⟨0, _⟩ => show 1536 + 1 * k.val = 512 * 3 + k.val; omega
      | ⟨1, _⟩ => show 0 + 1 * j.val = j.val; omega)
  show View.canon _ ((Rect.unit (s := S2048x16) ![1536, 0] S512x16.size inb_S2048x16_S512x16_1536_0).toLoadRect.idx (ix2 k j)) = _
  rw [e]
  exact canonZ c arg1 harg1 arg2 harg2 x0 x1 (chunkIdx 3 k) j

end Cert.KernelIdeal.Body

end
-- ==== Proof.KernelAcc.lean ====
/-
  The second scratch of one grid point, store by store. It starts at zero; quarter `q` adds to row `s`, column `j`,
  the sum over the quarter's 512 tokens `k` of (word id of `s` equals word id of `k`, as 0 or 1) times the first
  scratch's entry `(k, j)`. What the body reads back after each store is the running total so far, and after the
  fourth store the count column and the fifteen sum columns it divides.

  The four quarters are ONE step — the running total plus the product of the equality weights with a 512-row slice of
  the first scratch — taken at the column offsets 0, 512, 1024, 1536 of the row of word ids. The step is read at an
  index once, for any offset `512·q`: the product into zero is the sum over the 512 contracted positions, the weight at
  `(s, k)` is the equality test of the word id of `s` (the row stood up as a column, spread along the rows) with the word
  id of token `512·q + k` (the slice of the row, spread down the columns), and the slice's entry is the first scratch's.
  Every store covers the whole scratch, so what is read back is the last stored step, whatever came before.
-/
import proofs.«429237_j43267500540651_3_alg».proof.Proof.KernelZ

set_option maxRecDepth 16384

noncomputable section

open scoped BigOperators

namespace Cert.KernelIdeal.Body

open Cert.KernelIdeal Cert.KernelIdeal.Gen Idealize.ShloMosaic Idealize.ShloMosaic.ValueIdx Cert.Spec

/-- The word id of token `k` in the staged row of word ids. -/
def wrow (x2 : Vec Ideal S1x1x2048 .i32) (k : Fin 2048) : BitVec 32 := x2 (ix3 0 0 k)

/-- What quarter `q` adds to row `s`, column `j` of the second scratch. -/
def quarter (x0 : Vec Ideal S1x2048x1024 .f32) (x1 : Vec Ideal S1024x15 .bf16) (x2 : Vec Ideal S1x1x2048 .i32)
    (q : Fin 4) (s : Fin 2048) (j : Fin 16) : EReal :=
  ∑ k : Fin 512, eqw (wrow x2 s) (wrow x2 (chunkIdx q k)) * Z x0 x1 (chunkIdx q k) j

namespace Acc

theorem zero2 : (![0, 0] : Fin 2 → Nat) = fun _ => 0 := by funext a; fin_cases a <;> rfl
theorem zero3 : (![0, 0, 0] : Fin 3 → Nat) = fun _ => 0 := by funext a; fin_cases a <;> rfl

/-- The staged row of word ids, loaded whole, is the row. -/
theorem load_ids (arg3 : Memref sig .tc .vmem S1x1x2048 .i32) (harg3 : arg3.IsWhole) (x2 : Vec Ideal S1x1x2048 .i32) :
    View.readAt (Elt Ideal) arg3.view (Rect.unit ![0, 0, 0] S1x1x2048.size inb_S1x1x2048_S1x1x2048_0_0_0).toLoadRect (harg3.unread x2) = x2 := by
  simp only [View.readAt_eq_ld, harg3.read_unread, View.ld_unit_zero (S := S1x1x2048) zero3]

/-- The row of word ids with its leading unit axis dropped. -/
theorem ids_row_apply (x2 : Vec Ideal S1x1x2048 .i32) (k : Fin 2048) :
    k0_pay5 (F := Ideal) x2 (ix2 0 k) = wrow x2 k := by
  unfold k0_pay5 wrow
  exact shapeCast_apply x2 shapeCasts_S1x1x2048_S1x2048 (ix2 0 k) (ix3 0 0 k)
    (by rewrite [Shape.rowMajor_val_two, Shape.rowMajor_val_three]; rfl)

/-- The same row stood up as a column. -/
theorem ids_col_apply (x2 : Vec Ideal S1x1x2048 .i32) (s : Fin 2048) :
    k0_pay6 (F := Ideal) x2 (ix2 s 0) = wrow x2 s := by
  unfold k0_pay6
  refine (transpose_apply [1, 0] (k0_pay5 (F := Ideal) x2) transposes_S1x2048_p1_0_S2048x1 (ix2 s 0) (ix2 0 s) ?_).trans (ids_row_apply x2 s)
  intro b
  match b with
  | ⟨0, _⟩ => rfl
  | ⟨1, _⟩ => rfl

/-! The product of a [2048, 512] array with a [512, 16] array, read at an index: the operand indices of the contraction. -/

theorem lhs_quarter_0 (i : S2048x16.Idx) (q : dot_S2048x512_S512x16_S2048x16_1_0_0_1_n_n.contr.Idx) :
    (dot_S2048x512_S512x16_S2048x16_1_0_0_1_n_n.lhsIdx i q 0).val = (i 0).val := by
  unfold DotDims.lhsIdx
  rw [dif_neg (show ¬(0 : Fin S2048x512.rank) ∈ dot_S2048x512_S512x16_S2048x16_1_0_0_1_n_n.lhsBatch by decide), dif_pos (show (0 : Fin S2048x512.rank) ∈ dot_S2048x512_S512x16_S2048x16_1_0_0_1_n_n.lhsNonContracting by decide)]
  rfl
theorem lhs_quarter_1 (i : S2048x16.Idx) (q : dot_S2048x512_S512x16_S2048x16_1_0_0_1_n_n.contr.Idx) :
    (dot_S2048x512_S512x16_S2048x16_1_0_0_1_n_n.lhsIdx i q 1).val = (q ⟨0, by decide⟩).val :=
  dot_S2048x512_S512x16_S2048x16_1_0_0_1_n_n.lhsIdx_val_of_single rfl i q
theorem rhs_quarter_0 (i : S2048x16.Idx) (q : dot_S2048x512_S512x16_S2048x16_1_0_0_1_n_n.contr.Idx) :
    (dot_S2048x512_S512x16_S2048x16_1_0_0_1_n_n.rhsIdx i q 0).val = (q ⟨0, by decide⟩).val :=
  dot_S2048x512_S512x16_S2048x16_1_0_0_1_n_n.rhsIdx_val_of_single rfl i q
theorem rhs_quarter_1 (i : S2048x16.Idx) (q : dot_S2048x512_S512x16_S2048x16_1_0_0_1_n_n.contr.Idx) :
    (dot_S2048x512_S512x16_S2048x16_1_0_0_1_n_n.rhsIdx i q 1).val = (i 1).val := by
  unfold DotDims.rhsIdx
  rw [dif_neg (show ¬(1 : Fin S512x16.rank) ∈ dot_S2048x512_S512x16_S2048x16_1_0_0_1_n_n.rhsBatch by decide), dif_pos (show (1 : Fin S512x16.rank) ∈ dot_S2048x512_S512x16_S2048x16_1_0_0_1_n_n.rhsNonContracting by decide)]
  rfl

/-- The product accumulated into zero, at row `s` and column `j`: the sum over the 512 contracted positions. -/
theorem quarter_matmul_apply (lhs : FVec Ideal S2048x512 .bf16) (rhs : FVec Ideal S512x16 .bf16) (s : Fin 2048) (j : Fin 16) :
    matmul (F := Ideal) dot_S2048x512_S512x16_S2048x16_1_0_0_1_n_n none lhs rhs (constant (F := Ideal) S2048x16 .f32 0x00000000#32) (ix2 s j)
      = ∑ k : Fin 512, lhs (ix2 s k) * rhs (ix2 k j) := by
  refine (Ideal.matmul_constant_zero_apply dot_S2048x512_S512x16_S2048x16_1_0_0_1_n_n none lhs rhs (ix2 s j)).trans ?_
  rw [← Equiv.sum_comp (ValueIdx.contrEquiv1 dot_S2048x512_S512x16_S2048x16_1_0_0_1_n_n 512 rfl rfl).symm]
  refine Finset.sum_congr rfl fun k _ => ?_
  have hk := ValueIdx.contrEquiv1_symm_val dot_S2048x512_S512x16_S2048x16_1_0_0_1_n_n 512 rfl rfl k
  have el : dot_S2048x512_S512x16_S2048x16_1_0_0_1_n_n.lhsIdx (ix2 s j) ((ValueIdx.contrEquiv1 dot_S2048x512_S512x16_S2048x16_1_0_0_1_n_n 512 rfl rfl).symm k) = ix2 s k := funext fun a => Fin.ext (by
    match a with
    | ⟨0, _⟩ => exact lhs_quarter_0 _ _
    | ⟨1, _⟩ => exact (lhs_quarter_1 _ _).trans hk)
  have er : dot_S2048x512_S512x16_S2048x16_1_0_0_1_n_n.rhsIdx (ix2 s j) ((ValueIdx.contrEquiv1 dot_S2048x512_S512x16_S2048x16_1_0_0_1_n_n 512 rfl rfl).symm k) = ix2 k j := funext fun a => Fin.ext (by
    match a with
    | ⟨0, _⟩ => exact (rhs_quarter_0 _ _).trans hk
    | ⟨1, _⟩ => exact rhs_quarter_1 _ _)
  rw [el, er]

/-- The weight array at an index: the equality test of the two word ids there, as 0 or 1. -/
theorem weight_apply (A B : IVec S2048x512 32) (i : S2048x512.Idx) :
    (truncf .bf16 (sitofp (F := Ideal) .f32 (extui 32 (cmpi .eq A B) natLt_1_32)) bitsLt_bf16_f32 : FVec Ideal S2048x512 .bf16) i
      = eqw (A i) (B i) := rfl

/-- The column of word ids spread along the rows of a [2048, 512] array. -/
theorem ids_col_spread (v15 : IVec S2048x1 32) (s : Fin 2048) (k : Fin 512) :
    broadcastTo S2048x512 v15 broadcasts_S2048x1_S2048x512 (ix2 s k) = v15 (ix2 s 0) :=
  broadcastTo_apply v15 broadcasts_S2048x1_S2048x512 (ix2 s k) (ix2 s 0) (fun a => match a with
    | ⟨0, _⟩ => by show s.val = if (2048 : Nat) = 1 then 0 else s.val; rw [if_neg (by decide)]
    | ⟨1, _⟩ => by show (0 : Nat) = if (1 : Nat) = 1 then 0 else k.val; rw [if_pos rfl])

/-- A row of 512 word ids spread down the columns of a [2048, 512] array. -/
theorem ids_row_spread (v : IVec S1x512 32) (s : Fin 2048) (k : Fin 512) :
    broadcastTo S2048x512 v broadcasts_S1x512_S2048x512 (ix2 s k) = v (ix2 0 k) :=
  broadcastTo_apply v broadcasts_S1x512_S2048x512 (ix2 s k) (ix2 0 k) (fun a => match a with
    | ⟨0, _⟩ => by show (0 : Nat) = if (1 : Nat) = 1 then 0 else s.val; rw [if_pos rfl]
    | ⟨1, _⟩ => by show k.val = if (512 : Nat) = 1 then 0 else k.val; rw [if_neg (by decide)])

/-- The 512 word ids of quarter `q`, cut from the row at column offset `512·q`. -/
theorem ids_slice_apply (off : Fin 2 → Nat) (hs : S1x2048.Slices off S1x512) (q : Fin 4) (h0 : off 0 = 0) (h1 : off 1 = 512 * q.val)
    (v14 : IVec S1x2048 32) (k : Fin 512) :
    extractStridedSlice S1x512 off v14 hs (ix2 0 k) = v14 (ix2 0 (chunkIdx q k)) :=
  extractStridedSlice_apply off v14 hs (ix2 0 k) (ix2 0 (chunkIdx q k)) (fun a => match a with
    | ⟨0, _⟩ => by show (0 : Nat) = off 0 + 0; rw [h0]
    | ⟨1, _⟩ => by show 512 * q.val + k.val = off 1 + k.val; rw [h1])

/-- One quarter's step: the running total plus the product of the equality weights with a slice of the first scratch. -/
def qbody (off : Fin 2 → Nat) (hs : S1x2048.Slices off S1x512) (v14 : IVec S1x2048 32) (v15 : IVec S2048x1 32)
    (z : Vec Ideal S512x16 .f32) (a : Vec Ideal S2048x16 .f32) : FVec Ideal S2048x16 .f32 :=
  addf a (matmul (F := Ideal) dot_S2048x512_S512x16_S2048x16_1_0_0_1_n_n none
    (truncf .bf16 (sitofp (F := Ideal) .f32 (extui 32 (cmpi .eq (broadcastTo S2048x512 v15 broadcasts_S2048x1_S2048x512)
      (broadcastTo S2048x512 (extractStridedSlice S1x512 off v14 hs) broadcasts_S1x512_S2048x512)) natLt_1_32)) bitsLt_bf16_f32)
    (truncf .bf16 z bitsLt_bf16_f32) (constant (F := Ideal) S2048x16 .f32 0x00000000#32))

/-- The step at row `s`, column `j`: the running total there plus what quarter `q` adds. -/
theorem qbody_apply (x0 : Vec Ideal S1x2048x1024 .f32) (x1 : Vec Ideal S1024x15 .bf16) (x2 : Vec Ideal S1x1x2048 .i32)
    (q : Fin 4) (off : Fin 2 → Nat) (hs : S1x2048.Slices off S1x512) (h0 : off 0 = 0) (h1 : off 1 = 512 * q.val)
    (v14 : IVec S1x2048 32) (hv14 : ∀ k : Fin 2048, v14 (ix2 0 k) = wrow x2 k)
    (v15 : IVec S2048x1 32) (hv15 : ∀ s : Fin 2048, v15 (ix2 s 0) = wrow x2 s)
    (z : Vec Ideal S512x16 .f32) (hz : ∀ (k : Fin 512) (j : Fin 16), z (ix2 k j) = Z x0 x1 (chunkIdx q k) j)
    (a : Vec Ideal S2048x16 .f32) (s : Fin 2048) (j : Fin 16) :
    qbody off hs v14 v15 z a (ix2 s j) = a (ix2 s j) + quarter x0 x1 x2 q s j := by
  unfold qbody quarter
  rw [addf_apply, quarter_matmul_apply]
  refine congrArg (a (ix2 s j) + ·) (Finset.sum_congr rfl fun k _ => ?_)
  rw [weight_apply, ids_col_spread, ids_row_spread, ids_slice_apply off hs q h0 h1, hv15, hv14, truncf_apply, hz]

/-- The four steps as the program spells them are the one step at the four column offsets. -/
theorem step0_eq (v13 : Vec Ideal S1x1x2048 .i32) (z : Vec Ideal S512x16 .f32) (a : Vec Ideal S2048x16 .f32) :
    k0_pay8 (F := Ideal) v13 z a = qbody ![0, 0] slices_S1x2048_o0_0_S1x512 (k0_pay5 (F := Ideal) v13) (k0_pay6 (F := Ideal) v13) z a := rfl

theorem step1_eq (v14 : IVec S1x2048 32) (v15 : IVec S2048x1 32) (z : Vec Ideal S512x16 .f32) (a : Vec Ideal S2048x16 .f32) :
    k0_pay10 (F := Ideal) v14 v15 z a = qbody ![0, 512] slices_S1x2048_o0_512_S1x512 v14 v15 z a := by
  exact shapeCast_self (qbody ![0, 512] slices_S1x2048_o0_512_S1x512 v14 v15 z a) shapeCasts_S2048x16_S2048x16

theorem step2_eq (v14 : IVec S1x2048 32) (v15 : IVec S2048x1 32) (z : Vec Ideal S512x16 .f32) (a : Vec Ideal S2048x16 .f32) :
    k0_pay11 (F := Ideal) v14 v15 z a = qbody ![0, 1024] slices_S1x2048_o0_1024_S1x512 v14 v15 z a := by
  exact shapeCast_self (qbody ![0, 1024] slices_S1x2048_o0_1024_S1x512 v14 v15 z a) shapeCasts_S2048x16_S2048x16

theorem step3_eq (v14 : IVec S1x2048 32) (v15 : IVec S2048x1 32) (z : Vec Ideal S512x16 .f32) (a : Vec Ideal S2048x16 .f32) :
    k0_pay1 (F := Ideal) (k0_pay12 (F := Ideal) v14 v15) z a = qbody ![0, 1536] slices_S1x2048_o0_1536_S1x512 v14 v15 z a := by
  exact shapeCast_self (qbody ![0, 1536] slices_S1x2048_o0_1536_S1x512 v14 v15 z a) shapeCasts_S2048x16_S2048x16

end Acc

variable (c : Dev nD) (arg1 : Memref sig .tc .vmem S1x2048x1024 .f32) (harg1 : arg1.IsWhole)
  (arg2 : Memref sig .tc .vmem S1024x15 .bf16) (harg2 : arg2.IsWhole)
  (arg3 : Memref sig .tc .vmem S1x1x2048 .i32) (harg3 : arg3.IsWhole)
  (arg6 : Memref sig .tc .vmem S2048x16 .f32) (arg7 : Memref sig .tc .vmem S2048x16 .f32)
  (x0 : Vec Ideal S1x2048x1024 .f32) (x1 : Vec Ideal S1024x15 .bf16) (x2 : Vec Ideal S1x1x2048 .i32)

namespace Acc

/-- The row of word ids the later quarters reuse. -/
theorem ids_row_eq : kernelRun0_A.sl.r (F := Ideal) c arg3 harg3 x2 = k0_pay5 (F := Ideal) x2 := by
  unfold kernelRun0_A.sl.r; rw [load_ids]

/-- The column of word ids the later quarters reuse. -/
theorem ids_col_eq : kernelRun0_A.sl.r_1 (F := Ideal) c arg3 harg3 x2 = k0_pay6 (F := Ideal) x2 := by
  unfold kernelRun0_A.sl.r_1; rw [load_ids]

/-- The second scratch starts at zero. -/
theorem acc0_apply (s : Fin 2048) (j : Fin 16) : kernelRun0_A.sl.v29 (F := Ideal) c arg7 (ix2 s j) = 0 := by
  unfold kernelRun0_A.sl.v29 kernelRun0_A.sl.HS1_1
  rw [View.readCov_cons_toLoadRect]
  unfold k0_pay7
  rw [shapeCast_self]
  exact Ideal.ofBits_zero_f32

end Acc

/-- Read back after the first quarter's store. -/
theorem acc1_apply (s : Fin 2048) (j : Fin 16) :
    kernelRun0_A.sl.v44 (F := Ideal) c arg1 harg1 arg2 harg2 arg3 harg3 arg6 arg7 x0 x1 x2 (ix2 s j) = 0 + quarter x0 x1 x2 0 s j := by
  unfold kernelRun0_A.sl.v44 kernelRun0_A.sl.HS1_2
  rw [View.readCov_cons_toLoadRect]
  unfold k0_pay9
  rw [shapeCast_self]
  unfold kernelRun0_A.sl.r_2
  rw [Acc.load_ids, Acc.step0_eq,
    Acc.qbody_apply x0 x1 x2 0 ![0, 0] slices_S1x2048_o0_0_S1x512 rfl rfl (k0_pay5 (F := Ideal) x2) (Acc.ids_row_apply x2)
      (k0_pay6 (F := Ideal) x2) (Acc.ids_col_apply x2) _ (zslice0 c arg1 harg1 arg2 harg2 arg6 x0 x1) _ s j,
    Acc.acc0_apply]

/-- Read back after the second quarter's store. -/
theorem acc2_apply (s : Fin 2048) (j : Fin 16) :
    kernelRun0_A.sl.v59 (F := Ideal) c arg1 harg1 arg2 harg2 arg3 harg3 arg6 arg7 x0 x1 x2 (ix2 s j)
      = (0 + quarter x0 x1 x2 0 s j) + quarter x0 x1 x2 1 s j := by
  unfold kernelRun0_A.sl.v59 kernelRun0_A.sl.HS1_3
  rw [View.readCov_cons_toLoadRect, Acc.ids_row_eq, Acc.ids_col_eq, Acc.step1_eq,
    Acc.qbody_apply x0 x1 x2 1 ![0, 512] slices_S1x2048_o0_512_S1x512 rfl rfl (k0_pay5 (F := Ideal) x2) (Acc.ids_row_apply x2)
      (k0_pay6 (F := Ideal) x2) (Acc.ids_col_apply x2) _ (zslice1 c arg1 harg1 arg2 harg2 arg6 x0 x1) _ s j,
    acc1_apply]

/-- Read back after the third quarter's store. -/
theorem acc3_apply (s : Fin 2048) (j : Fin 16) :
    kernelRun0_A.sl.v74 (F := Ideal) c arg1 harg1 arg2 harg2 arg3 harg3 arg6 arg7 x0 x1 x2 (ix2 s j)
      = ((0 + quarter x0 x1 x2 0 s j) + quarter x0 x1 x2 1 s j) + quarter x0 x1 x2 2 s j := by
  unfold kernelRun0_A.sl.v74 kernelRun0_A.sl.HS1_4
  rw [View.readCov_cons_toLoadRect, Acc.ids_row_eq, Acc.ids_col_eq, Acc.step2_eq,
    Acc.qbody_apply x0 x1 x2 2 ![0, 1024] slices_S1x2048_o0_1024_S1x512 rfl rfl (k0_pay5 (F := Ideal) x2) (Acc.ids_row_apply x2)
      (k0_pay6 (F := Ideal) x2) (Acc.ids_col_apply x2) _ (zslice2 c arg1 harg1 arg2 harg2 arg6 x0 x1) _ s j,
    acc2_apply]

namespace Acc

/-- The second scratch after the fourth quarter's store, at row `s` and column `j`. -/
theorem total_apply (s : Fin 2048) (j : Fin 16) :
    View.canon (kernelRun0_A.sl.HS1_5 (F := Ideal) c arg1 harg1 arg2 harg2 arg3 harg3 arg6 arg7 x0 x1 x2) (ix2 s j)
      = (((0 + quarter x0 x1 x2 0 s j) + quarter x0 x1 x2 1 s j) + quarter x0 x1 x2 2 s j) + quarter x0 x1 x2 3 s j := by
  unfold kernelRun0_A.sl.HS1_5
  rw [View.canon_cons_unit_zero (S := S2048x16) zero2]
  unfold kernelRun0_A.sl.r_3
  rw [ids_row_eq, ids_col_eq, step3_eq,
    qbody_apply x0 x1 x2 3 ![0, 1536] slices_S1x2048_o0_1536_S1x512 rfl rfl (k0_pay5 (F := Ideal) x2) (ids_row_apply x2)
      (k0_pay6 (F := Ideal) x2) (ids_col_apply x2) _ (zslice3 c arg1 harg1 arg2 harg2 arg6 x0 x1) _ s j,
    acc3_apply]

end Acc

/-- The count column (column 15) read back after the fourth quarter's store. -/
theorem count_apply (s : Fin 2048) :
    kernelRun0_A.sl.v81 (F := Ideal) c arg1 harg1 arg2 harg2 arg3 harg3 arg6 arg7 x0 x1 x2 (ix2 s (0 : Fin 1))
      = (((0 + quarter x0 x1 x2 0 s 15) + quarter x0 x1 x2 1 s 15) + quarter x0 x1 x2 2 s 15) + quarter x0 x1 x2 3 s 15 := by
  unfold kernelRun0_A.sl.v81
  rw [View.readCov_eq_canon']
  have hi : (Rect.unit (s := S2048x16) ![0, 15] S2048x1.size inb_S2048x16_S2048x1_0_15).toLoadRect.idx (ix2 s (0 : Fin 1))
      = ix2 s (15 : Fin 16) := funext fun a => Fin.ext (by
    match a with
    | ⟨0, _⟩ => show 0 + 1 * s.val = s.val; omega
    | ⟨1, _⟩ => rfl)
  show View.canon _ ((Rect.unit (s := S2048x16) ![0, 15] S2048x1.size inb_S2048x16_S2048x1_0_15).toLoadRect.idx (ix2 s (0 : Fin 1))) = _
  rw [hi]
  exact Acc.total_apply c arg1 harg1 arg2 harg2 arg3 harg3 arg6 arg7 x0 x1 x2 s 15

/-- The fifteen sum columns read back after the fourth quarter's store. -/
theorem sums_apply (s : Fin 2048) (cc : Fin 15) :
    kernelRun0_A.sl.v82 (F := Ideal) c arg1 harg1 arg2 harg2 arg3 harg3 arg6 arg7 x0 x1 x2 (ix2 s cc)
      = (((0 + quarter x0 x1 x2 0 s ⟨cc.val, by omega⟩) + quarter x0 x1 x2 1 s ⟨cc.val, by omega⟩)
          + quarter x0 x1 x2 2 s ⟨cc.val, by omega⟩) + quarter x0 x1 x2 3 s ⟨cc.val, by omega⟩ := by
  unfold kernelRun0_A.sl.v82
  rw [View.readCov_eq_canon']
  have hi : (Rect.unit (s := S2048x16) ![0, 0] S2048x15.size inb_S2048x16_S2048x15_0_0).toLoadRect.idx (ix2 s cc)
      = ix2 s (⟨cc.val, by omega⟩ : Fin 16) := funext fun a => Fin.ext (by
    match a with
    | ⟨0, _⟩ => show 0 + 1 * s.val = s.val; omega
    | ⟨1, _⟩ => show 0 + 1 * cc.val = cc.val; omega)
  show View.canon _ ((Rect.unit (s := S2048x16) ![0, 0] S2048x15.size inb_S2048x16_S2048x15_0_0).toLoadRect.idx (ix2 s cc)) = _
  rw [hi]
  exact Acc.total_apply c arg1 harg1 arg2 harg2 arg3 harg3 arg6 arg7 x0 x1 x2 s ⟨cc.val, by omega⟩

end Cert.KernelIdeal.Body

end
-- ==== Proof.KernelOut.lean ====
/-
  What one grid point writes to its output block. After the four quarters, row `s` of the second scratch holds the
  segment's sums of projected features in its first fifteen columns and the segment's size in its sixteenth (the
  0/1 weights pick out the segment; the sixteenth column of the first scratch is the constant one). The block's entry
  `(s, c)` is column `c` over the size clamped below by one — the size itself, a segment holding its own token —
  plus the bias.
-/
import proofs.«429237_j43267500540651_3_alg».proof.Proof.KernelAcc
import proofs.«429237_j43267500540651_3_alg».proof.Proof.SegmentSums
import Idealize.ShloMosaic.Lib.ValueLayout

set_option maxRecDepth 16384

noncomputable section

open scoped BigOperators

namespace Cert.KernelIdeal.Body

open Cert.KernelIdeal Cert.KernelIdeal.Gen Idealize.ShloMosaic Idealize.ShloMosaic.ValueIdx Cert.Spec

/-- The output block of one grid point, entry by entry, is the row's pooled head of the point's input blocks:
    `x0` the row of `x`, `x1` the transposed weights, `x2` the row of word ids, `x3` the bias. -/
theorem out_apply (c : Dev nD) (i : grid0.Coords) (arg1 : Memref sig .tc .vmem S1x2048x1024 .f32) (harg1 : arg1.IsWhole) (arg2 : Memref sig .tc .vmem S1024x15 .bf16) (harg2 : arg2.IsWhole) (arg3 : Memref sig .tc .vmem S1x1x2048 .i32) (harg3 : arg3.IsWhole) (arg4 : Memref sig .tc .vmem S15 .f32) (harg4 : arg4.IsWhole) (arg5 : Memref sig .tc .vmem S1x2048x15 .f32) (harg5 : arg5.IsWhole) (arg6 : Memref sig .tc .vmem S2048x16 .f32) (harg6 : arg6.IsWhole) (arg7 : Memref sig .tc .vmem S2048x16 .f32) (harg7 : arg7.IsWhole)
    (x0 : Vec Ideal S1x2048x1024 .f32) (x1 : Vec Ideal S1024x15 .bf16) (x2 : Vec Ideal S1x1x2048 .i32) (x3 : Vec Ideal S15 .f32)
    (s : Fin 2048) (cc : Fin 15) :
    out0_A_4 (F := Ideal) c i arg1 harg1 arg2 harg2 arg3 harg3 arg4 harg4 arg5 harg5 arg6 harg6 arg7 harg7 x0 x1 x2 x3 (ix3 0 s cc)
      = rowHead (fun k h => x0 (ix3 0 k h)) (fun k => x2 (ix3 0 0 k)) (fun c' h => x1 (ix2 h c')) (fun c' => x3 (ix1 c')) s cc := by
  have hz : (![0,0,0] : Fin 3 → Nat) = fun _ => 0 := by funext a; fin_cases a <;> rfl
  have hq : ∀ j : Fin 16, (((0 + quarter x0 x1 x2 0 s j) + quarter x0 x1 x2 1 s j) + quarter x0 x1 x2 2 s j)
      + quarter x0 x1 x2 3 s j = ∑ k ∈ seg (wrow x2) s, Z x0 x1 k j :=
    fun j => chunks_eq_seg (wrow x2) (fun k => Z x0 x1 k j) s
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  rw [View.canon_unit_zero hz]
  unfold k0_pay2
  refine (shapeCast_ab_1ab_apply _ _ 0 s cc).trans ?_
  refine (addf_apply _ _ _).trans ?_
  refine (congrArg (· + _) (divf_apply _ _ _)).trans ?_
  unfold rowHead
  refine congrArg₂ (· + ·) (congrArg₂ Ideal.div ?_ ?_) ?_
  · rw [sums_apply, hq]
    refine Finset.sum_congr rfl (fun k _ => ?_)
    unfold Z
    exact dif_pos (show (⟨cc.val, _⟩ : Fin 16).val < 15 from cc.isLt)
  · refine (broadcastTo_apply _ _ (ix2 s cc) (ix2 s (0 : Fin 1)) (fun a => ?_)).trans ?_
    · match a with
      | ⟨0, _⟩ => rfl
      | ⟨1, _⟩ => rfl
    · refine (maximumf_apply _ _ _).trans ?_
      rw [broadcast_apply, count_apply, hq]
      have h1 : ∑ k ∈ seg (wrow x2) s, Z x0 x1 k 15 = ∑ _k ∈ seg (wrow x2) s, (1 : EReal) :=
        Finset.sum_congr rfl (fun k _ => dif_neg (by decide))
      rw [h1, seg_sum_one]
      show max _ (Ideal.ofBits .f32 0x3F800000#32) = _
      rw [Ideal.ofBits_one_f32]
      exact max_card_one _ s
  · refine (broadcastTo_1b_ab_apply _ _ s cc).trans ?_
    refine (shapeCast_a_1a_apply _ _ 0 cc).trans ?_
    rw [View.readAt_eq_ld, harg4.read_unread]
    exact congrFun (View.ld_unit_zero (by funext a; fin_cases a; rfl) _ x3) (ix1 cc)

end Cert.KernelIdeal.Body

end
-- ==== Proof.KernelValue.lean ====
/-
  The kernel's result array. Grid point `t` stages row `t` of `x`, row `t` of the word ids (reshaped by the host to
  `[16, 1, 2048]`), the whole transposed weight matrix (transposed and narrowed by the host: the narrowing is the
  identity on the extended reals) and the whole bias, and writes back block `t` of the result: the pooled head of
  row `t`. A block's coordinate is always index × size + the coordinate inside the block, and the index maps send
  point `t` to block `(t, 0, 0)`; the sixteen blocks tile the result array, so the array after the run is the
  pooled head.
-/
import proofs.«429237_j43267500540651_3_alg».proof.Proof.KernelOut
import proofs.«429237_j43267500540651_3_alg».proof.Proof.Gen.KernelIdeal.Value
import Idealize.ShloMosaic.Lib.ValueLayout
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-- The word ids as the region finds them: the argument reshaped to `[16, 1, 2048]`. -/
theorem wids_apply (c : Dev nD) (b : Fin 16) (k : Fin 2048) :
    (V m c main_v0 : S16x1x2048.Idx → BitVec 32) (ix3 b (0 : Fin 1) k) = m ((c : Thread nD τ).loc main_arg1) (ix2 b k) := by
  have e : (V m c main_v0 : S16x1x2048.Idx → BitVec 32)
      = shapeCast S16x1x2048 (m ((c : Thread nD τ).loc main_arg1)) Gen.shapeCasts_S16x2048_S16x1x2048 := by
    dsimp only [V, hostOps0]; after_results <;> rfl
  rw [e]
  refine shapeCast_apply _ _ _ _ ?_
  show ((S16x2048 : Shape).rowMajor (ix2 b k)).val = (S16x1x2048.rowMajor (ix3 b (0 : Fin 1) k)).val
  rw [Shape.rowMajor_val_two, Shape.rowMajor_val_three]
  show b.val * 2048 + k.val = (b.val * 1 + 0) * 2048 + k.val
  omega

/-- The weights as the region finds them: the argument transposed (its narrowing is the identity). -/
theorem wt_apply (c : Dev nD) (h : Fin 1024) (cc : Fin 15) :
    (V m c main_v2 : S1024x15.Idx → EReal) (ix2 h cc) = m ((c : Thread nD τ).loc main_arg2) (ix2 cc h) := by
  have e : (V m c main_v2 : S1024x15.Idx → EReal)
      = truncf (F := Ideal) .bf16 (transpose S1024x15 [1, 0] (m ((c : Thread nD τ).loc main_arg2)) Gen.transposes_S15x1024_S1024x15_1_0) Gen.bitsLt_bf16_f32 := by
    dsimp only [V, hostOps0]; after_results <;> rfl
  rw [e]
  show transpose S1024x15 [1, 0] (m ((c : Thread nD τ).loc main_arg2)) _ (ix2 h cc) = _
  exact transpose_ix2_apply _ _ h cc

/-- A grid point, as the batch row it works on. -/
def rowOf (t : Fin cfg0.N) : Fin 16 := ⟨t.val, by have h := t.isLt; have e : cfg0.N = 16 := N_0; omega⟩

/-- Point `t` stages row `t` of `x`. -/
theorem xblk_apply (c : Dev nD) (t : Fin cfg0.N) (k : Fin 2048) (h : Fin 1024) :
    (iblk m c 0 t : Vec Ideal S1x2048x1024 .f32) (ix3 (0 : Fin 1) k h) = m ((c : Thread nD τ).loc main_arg0) (ix3 (rowOf t) k h) := by
  obtain ⟨e0, e1, e2, -⟩ := idx_facts t
  unfold iblk
  rw [View.read_apply]
  show V m c main_arg0 _ = _
  rw [V_main_arg0]
  congr 1
  funext a; apply Fin.ext
  match a with
  | ⟨0, _⟩ => show win0_0.index t (0 : Fin 3) * 1 + 1 * 0 = t.val; rw [e0]; omega
  | ⟨1, _⟩ => show win0_0.index t (1 : Fin 3) * 2048 + 1 * k.val = k.val; rw [e1]; omega
  | ⟨2, _⟩ => show win0_0.index t (2 : Fin 3) * 1024 + 1 * h.val = h.val; rw [e2]; omega

/-- Every point stages the whole transposed weight matrix. -/
theorem wblk_apply (c : Dev nD) (t : Fin cfg0.N) (h : Fin 1024) (cc : Fin 15) :
    (iblk m c 1 t : Vec Ideal S1024x15 .bf16) (ix2 h cc) = m ((c : Thread nD τ).loc main_arg2) (ix2 cc h) := by
  obtain ⟨-, -, -, e0, e1, -⟩ := idx_facts t
  rw [← wt_apply m c h cc]
  unfold iblk
  rw [View.read_apply]
  show V m c main_v2 _ = V m c main_v2 _
  congr 1
  funext a; apply Fin.ext
  match a with
  | ⟨0, _⟩ => show win0_1.index t (0 : Fin 2) * 1024 + 1 * h.val = h.val; rw [e0]; omega
  | ⟨1, _⟩ => show win0_1.index t (1 : Fin 2) * 15 + 1 * cc.val = cc.val; rw [e1]; omega

/-- Point `t` stages row `t` of the word ids. -/
theorem idblk_apply (c : Dev nD) (t : Fin cfg0.N) (k : Fin 2048) :
    (iblk m c 2 t : Vec Ideal S1x1x2048 .i32) (ix3 (0 : Fin 1) (0 : Fin 1) k) = m ((c : Thread nD τ).loc main_arg1) (ix2 (rowOf t) k) := by
  obtain ⟨-, -, -, -, -, e0, e1, e2, -⟩ := idx_facts t
  rw [← wids_apply m c (rowOf t) k]
  unfold iblk
  rw [View.read_apply]
  show V m c main_v0 _ = V m c main_v0 _
  congr 1
  funext a; apply Fin.ext
  match a with
  | ⟨0, _⟩ => show win0_2.index t (0 : Fin 3) * 1 + 1 * 0 = t.val; rw [e0]; omega
  | ⟨1, _⟩ => show win0_2.index t (1 : Fin 3) * 1 + 1 * 0 = 0; rw [e1]
  | ⟨2, _⟩ => show win0_2.index t (2 : Fin 3) * 2048 + 1 * k.val = k.val; rw [e2]; omega

/-- Every point stages the whole bias. -/
theorem bblk_apply (c : Dev nD) (t : Fin cfg0.N) (cc : Fin 15) :
    (iblk m c 3 t : Vec Ideal S15 .f32) (ix1 cc) = m ((c : Thread nD τ).loc main_arg3) (ix1 cc) := by
  obtain ⟨-, -, -, -, -, -, -, -, e0, -⟩ := idx_facts t
  unfold iblk
  rw [View.read_apply]
  show V m c main_arg3 _ = _
  rw [V_main_arg3]
  congr 1
  funext a; apply Fin.ext
  match a with
  | ⟨0, _⟩ => show win0_3.index t (0 : Fin 1) * 15 + 1 * cc.val = cc.val; rw [e0]; omega

/-- What point `t` leaves in its output block, entry by entry: the pooled head of row `t`. -/
theorem block_apply (c : Dev nD) (t : Fin cfg0.N) (s : Fin 2048) (cc : Fin 15) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (ix3 (0 : Fin 1) s cc)
      = Cert.Spec.head (m ((c : Thread nD τ).loc main_arg0)) (m ((c : Thread nD τ).loc main_arg1)) (m ((c : Thread nD τ).loc main_arg2)) (m ((c : Thread nD τ).loc main_arg3)) (ix3 (rowOf t) s cc) := by
  rw [Cert.KernelIdeal.Body.out_apply, Cert.Spec.head_ix3]
  unfold Cert.Spec.headAt
  congr 1
  · funext k h; exact xblk_apply m c t k h
  · funext k; exact idblk_apply m c t k
  · funext c' h; exact wblk_apply m c t h c'
  · funext c'; exact bblk_apply m c t c'

/-- What point `t` writes back is block `t` of the pooled head. -/
theorem flushed_eq (c : Dev nD) (t : Fin cfg0.N) :
    (dats m 0 c).flushed 4 t
      = ((cfg0.win 4).blk t).view.read (Elt Ideal) (Cert.Spec.head (m ((c : Thread nD τ).loc main_arg0)) (m ((c : Thread nD τ).loc main_arg1)) (m ((c : Thread nD τ).loc main_arg2)) (m ((c : Thread nD τ).loc main_arg3))) := by
  rw [Cert.KernelIdeal.Value.flushed4_A]
  obtain ⟨-, -, -, -, -, -, -, -, -, e0, e1, e2⟩ := idx_facts t
  funext j
  show out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) j
      = Cert.Spec.head (m ((c : Thread nD τ).loc main_arg0)) (m ((c : Thread nD τ).loc main_arg1)) (m ((c : Thread nD τ).loc main_arg2)) (m ((c : Thread nD τ).loc main_arg3)) (((cfg0.win 4).blk t).view.emb j)
  have hlt : ((j : S1x2048x15.Idx) 0).val < 1 := ((j : S1x2048x15.Idx) 0).isLt
  have h0 : (j : S1x2048x15.Idx) 0 = (0 : Fin 1) := Fin.ext (by show ((j : S1x2048x15.Idx) 0).val = 0; omega)
  have hj : (j : S1x2048x15.Idx) = ix3 (0 : Fin 1) ((j : S1x2048x15.Idx) 1) ((j : S1x2048x15.Idx) 2) := by
    funext a
    match a with
    | ⟨0, _⟩ => exact h0
    | ⟨1, _⟩ => rfl
    | ⟨2, _⟩ => rfl
  refine (congrArg (out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t)) hj).trans ?_
  refine (block_apply m c t _ _).trans ?_
  refine congrArg (Cert.Spec.head (m ((c : Thread nD τ).loc main_arg0)) (m ((c : Thread nD τ).loc main_arg1)) (m ((c : Thread nD τ).loc main_arg2)) (m ((c : Thread nD τ).loc main_arg3))) ?_
  funext a; apply Fin.ext
  match a with
  | ⟨0, _⟩ =>
    show t.val = win0_4.index t (0 : Fin 3) * 1 + 1 * ((j : S1x2048x15.Idx) 0).val
    rw [e0, h0]; simp
  | ⟨1, _⟩ =>
    show ((j : S1x2048x15.Idx) 1).val = win0_4.index t (1 : Fin 3) * 2048 + 1 * ((j : S1x2048x15.Idx) 1).val
    rw [e1]; omega
  | ⟨2, _⟩ =>
    show ((j : S1x2048x15.Idx) 2).val = win0_4.index t (2 : Fin 3) * 15 + 1 * ((j : S1x2048x15.Idx) 2).val
    rw [e2]; omega

/-- An index of the result array is in point `t`'s block iff each coordinate is in the block's range on its axis. -/
theorem mem_blk (t : Fin cfg0.N) (i : S16x2048x15.Idx) :
    i ∈ ((cfg0.win 4).blk t).view.set ↔ ∀ a : Fin 3, win0_4.index t a * S1x2048x15.size a ≤ (i a).val ∧ (i a).val < win0_4.index t a * S1x2048x15.size a + S1x2048x15.size a := by
  show i ∈ ((View.whole main_v3).slice (win0_4.rect t)).set ↔ _
  rw [View.set_slice_whole, Rect.mem_set_unit]
  exact Iff.rfl

/-- After the run the result array is the pooled head of the argument arrays: row `b` of the result is the block
    the grid point `b` writes back. -/
theorem final (c : Dev nD) :
    (dats m 0 c).arrAt 4 cfg0.N = Cert.Spec.head (m ((c : Thread nD τ).loc main_arg0)) (m ((c : Thread nD τ).loc main_arg1)) (m ((c : Thread nD τ).loc main_arg2)) (m ((c : Thread nD τ).loc main_arg3)) :=
  (dats m 0 c).arrAt_eq_of_cover 4 (Cert.Spec.head (m ((c : Thread nD τ).loc main_arg0)) (m ((c : Thread nD τ).loc main_arg1)) (m ((c : Thread nD τ).loc main_arg2)) (m ((c : Thread nD τ).loc main_arg3))) (fun t _ => flushed_eq m c t) fun i => by
    have hi0 : ((i : S16x2048x15.Idx) 0).val < 16 := ((i : S16x2048x15.Idx) 0).isLt
    have hi1 : ((i : S16x2048x15.Idx) 1).val < 2048 := ((i : S16x2048x15.Idx) 1).isLt
    have hi2 : ((i : S16x2048x15.Idx) 2).val < 15 := ((i : S16x2048x15.Idx) 2).isLt
    have hN : cfg0.N = 16 := N_0
    refine ⟨⟨((i : S16x2048x15.Idx) 0).val, by omega⟩, flush0_4 _, ?_⟩
    obtain ⟨-, -, -, -, -, -, -, -, -, e0, e1, e2⟩ := idx_facts ⟨((i : S16x2048x15.Idx) 0).val, by omega⟩
    rw [mem_blk]
    intro a
    match a with
    | ⟨0, _⟩ =>
      show win0_4.index _ (0 : Fin 3) * 1 ≤ ((i : S16x2048x15.Idx) 0).val ∧ ((i : S16x2048x15.Idx) 0).val < win0_4.index _ (0 : Fin 3) * 1 + 1
      rw [e0]
      show ((i : S16x2048x15.Idx) 0).val * 1 ≤ ((i : S16x2048x15.Idx) 0).val ∧ ((i : S16x2048x15.Idx) 0).val < ((i : S16x2048x15.Idx) 0).val * 1 + 1
      omega
    | ⟨1, _⟩ =>
      show win0_4.index _ (1 : Fin 3) * 2048 ≤ ((i : S16x2048x15.Idx) 1).val ∧ ((i : S16x2048x15.Idx) 1).val < win0_4.index _ (1 : Fin 3) * 2048 + 2048
      rw [e1]; omega
    | ⟨2, _⟩ =>
      show win0_4.index _ (2 : Fin 3) * 15 ≤ ((i : S16x2048x15.Idx) 2).val ∧ ((i : S16x2048x15.Idx) 2).val < win0_4.index _ (2 : Fin 3) * 15 + 15
      rw [e2]; omega

/-- The kernel's run: it terminates with the result at the pooled head and the arguments unchanged. -/
theorem run : θ_run defs (onTc (τ := τ) (main (F := Ideal))) ⟨m, fun _ => 0, ρ⟩ fun r => ∀ c : Dev nD,
      r.2.mem ((c : Thread nD τ).loc main_v3)
        = Cert.Spec.head (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.KValue

end
-- ==== Proof.lean ====
/-
  The five claims about per-word segment-mean pooling with a linear head.

  The kernel projects each token's 1024 features to fifteen classes first and pools afterwards; the reference pools
  the features first and projects the means. Both equal the pooled head of `Proof/Spec.lean`: the segment's sum of
  projected features over the segment's size, plus the bias — the kernel by accumulating a 0/1 equality matrix against
  the projected features (no finiteness needed), the reference because averaging commutes with the linear head on
  real entries and because word ids in `[0, 800)` keep the reference's global segment numbers apart between rows.
  The frames of the two kernel programs are the generated ones; the reference's frame is its generated run.
-/
import proofs.«429237_j43267500540651_3_alg».proof.Defs
import proofs.«429237_j43267500540651_3_alg».proof.Proof.Gen.Kernel
import proofs.«429237_j43267500540651_3_alg».proof.Proof.Gen.Kernel.Skeleton
import proofs.«429237_j43267500540651_3_alg».proof.Proof.Gen.Kernel.Launch
import proofs.«429237_j43267500540651_3_alg».proof.Proof.Gen.Kernel.Points
import proofs.«429237_j43267500540651_3_alg».proof.Proof.Gen.Kernel.Frame
import proofs.«429237_j43267500540651_3_alg».proof.Proof.Gen.KernelIdeal
import proofs.«429237_j43267500540651_3_alg».proof.Proof.Gen.KernelIdeal.Skeleton
import proofs.«429237_j43267500540651_3_alg».proof.Proof.Gen.KernelIdeal.Launch
import proofs.«429237_j43267500540651_3_alg».proof.Proof.Gen.KernelIdeal.Points
import proofs.«429237_j43267500540651_3_alg».proof.Proof.Gen.KernelIdeal.Frame
import proofs.«429237_j43267500540651_3_alg».proof.Proof.Gen.ReferenceIdeal
import proofs.«429237_j43267500540651_3_alg».proof.Proof.Gen.KernelIdeal.Value
import proofs.«429237_j43267500540651_3_alg».proof.Proof.Gen.ReferenceIdeal.Run
import proofs.«429237_j43267500540651_3_alg».proof.Proof.Gen.ReferenceIdeal.Read
import proofs.«429237_j43267500540651_3_alg».proof.Proof.Gen.Pre_finite_inputs
import Idealize.ShloMosaic.Adequacy
import Idealize.ShloMosaic.Init

import proofs.«429237_j43267500540651_3_alg».proof.Proof.PreFacts
import proofs.«429237_j43267500540651_3_alg».proof.Proof.RefValue
import proofs.«429237_j43267500540651_3_alg».proof.Proof.KernelValue

noncomputable section

namespace Cert.Proof

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the pooled head of the (agreeing) argument arrays. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2]
  exact Cert.ReferenceIdeal.RefValue.ref_eq_head _ _ _ _
    (Cert.PreFacts.finite_x _ _ _ _ (hpre c)) (Cert.PreFacts.finite_w _ _ _ _ (hpre c)) (Cert.PreFacts.wid_range _ _ _ _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
